-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S100000 : Shape := ⟨1, ![100000]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_
  reducesTo_S100000x512_S100000_d1 : S100000x512.ReducesTo [1] S100000
  bcast_S_S100000 : S_.BroadcastsInDim S100000 (![] : Fin 0 → Fin S100000.rank)
  reducesTo_S100000_S_d0 : S100000.ReducesTo [0] S_

variable [Facts]

def fn_part1 {F : FTy → Type} [FloatOps F] (main_arg2 : FVec F S100000x512 .f32) (main_v12 : IVec S_ 1) (main_v15 : IVec S_ 1) : IVec S_ 1 :=
  let main_v16 : IVec S_ 1 := andi main_v12 main_v15
  let main_v17 : FVec F S100000x512 .f32 := mulf main_arg2 main_arg2
  let main_cst_6 : FVec F S_ .f32 := constant S_ .f32 0x00000000#32
  let main_v18 : FVec F S100000 .f32 := (fun x v => Host.reduceAdd x v reducesTo_S100000x512_S100000_d1 h_S_) main_v17 main_cst_6
  let main_cst_7 : FVec F S_ .f32 := constant S_ .f32 0x00000000#32
  let main_v19 : FVec F S100000 .f32 := broadcastInDim S100000 ![] bcast_S_S100000 main_cst_7
  let main_v20 : IVec S100000 1 := cmpf .ogt main_v18 main_v19
  let main_c_8 : IVec S_ 1 := constantI S_ 1 1#1
  let main_v21 : IVec S_ 1 := (fun x v => Host.reduce IntOp.andi x v reducesTo_S100000_S_d0 h_S_) main_v20 main_c_8
  let main_v22 : IVec S_ 1 := andi main_v16 main_v21
  main_v22

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 100000#32
  let main_v13 : IVec S1024 32 := broadcastInDim S1024 ![] bcast_S_S1024 main_c_4
  let main_v14 : IVec S1024 1 := cmpi .slt main_arg1 main_v13
  let main_c_5 : IVec S_ 1 := constantI S_ 1 1#1
  let main_v15 : IVec S_ 1 := (fun x v => Host.reduce IntOp.andi x v reducesTo_S1024_S_d0 h_S_) main_v14 main_c_5
  fn_part1 (F := F) main_arg2 main_v12 main_v15
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1024x100000 : Shape := ⟨2, ![1024, 100000]⟩
abbrev S1024x1024 : Shape := ⟨2, ![1024, 1024]⟩

abbrev nBuf : Space → Nat
  | .hbm => 69
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024, .f32⟩
  | .hbm, ⟨22, _⟩ => ⟨S1024x512, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024x512, .bf16⟩
  | .hbm, ⟨66, _⟩ => ⟨S1024x1, .i32⟩
  | .hbm, ⟨67, _⟩ => ⟨S1024x1, .f32⟩
  | .hbm, ⟨68, _⟩ => ⟨S1024x100000, .f32⟩
  | .local _ .vmem, ⟨0, _⟩ => ⟨S1024x512, .bf16⟩
  | .local _ .vmem, ⟨1, _⟩ => ⟨S1024x512, .f32⟩
  | .local _ .vmem, ⟨2, _⟩ => ⟨S1024x512, .f32⟩
  | .local _ .vmem, ⟨3, _⟩ => ⟨S1024x1, .i32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  reducesTo_S1024x512_S1024_d1 : S1024x512.ReducesTo [1] S1024
  h_S_ : 0 < S_.numel
  bcast_S1024x1_S1024x512_0_1 : S1024x1.BroadcastsInDim S1024x512 (![0, 1] : Fin 2 → Fin S1024x512.rank)
  bitsLt_bf16_f32 : FTy.bits .bf16 < FTy.bits .f32
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  broadcasts_S1024x1_S1024x512 : S1024x1.Broadcasts S1024x512
  shapeCasts_S1024x512_S1024x512 : S1024x512.ShapeCasts S1024x512
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  gather_S100000x512_S1024x1_S1024x512_1_0_n_n_0_1_1512_wf : GatherDims.WF S100000x512 S1024x1 S1024x512 [1] [0] [] [0] [] 1 ![1, 512]
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S100000x512.size a
  hwx0_1 : ∀ i : grid0.Coords, EltTy.bits .f32 = 32 ∨ (Rect.unit (s := S100000x512) (fun a => cc0_transform_1 i a * S1024x512.size a) (fun a => (Pipeline.Clip.of (cc0_transform_1 i a) (S1024x512.size a) (S100000x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S100000x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1024.size a < S1024x100000.size a
  hwx0_4 : ∀ i : grid0.Coords, EltTy.bits .f32 = 32 ∨ (Rect.unit (s := S1024x100000) (fun a => cc0_transform_4 i a * S1024x1024.size a) (fun a => (Pipeline.Clip.of (cc0_transform_4 i a) (S1024x1024.size a) (S1024x100000.size a)).extent (S1024x1024.size a)) fun a => Pipeline.Clip.inb (Pipeline.Clip.ok_of (hstart0_4 i a))).WholeWords (EltTy.packing .f32)
  hwxs0_4 : ∀ i : grid0.Coords, EltTy.bits .f32 = 32 ∨ (Rect.unit (s := S1024x1024) (fun _ => 0) (fun a => (Pipeline.Clip.of (cc0_transform_4 i a) (S1024x1024.size a) (S1024x100000.size a)).extent (S1024x1024.size a)) fun a => (Nat.zero_add _).trans_le (Pipeline.Clip.extent_le (Pipeline.Clip.ok_of (hstart0_4 i a)))).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v43) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v44) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v46) S1024x1024.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩
abbrev S1024x1 : Shape := ⟨2, ![1024, 1]⟩
abbrev S1024x2 : Shape := ⟨2, ![1024, 2]⟩

abbrev nBuf : Space → Nat
  | .hbm => 92
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S100000x512, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S100000x512, .f32⟩
  | .hbm, ⟨9, _⟩ => ⟨S100000x512, .f32⟩
  | .hbm, ⟨10, _⟩ => ⟨S512x100000, .f32⟩
  | .hbm, ⟨11, _⟩ => ⟨S1024x100000, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S_, .i32⟩
  | .hbm, ⟨68, _⟩ => ⟨S1024, .i32⟩
  | .hbm, ⟨69, _⟩ => ⟨S1024, .i1⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S_, .i32⟩
  | .hbm, ⟨75, _⟩ => ⟨S1024, .i32⟩
  | .hbm, ⟨76, _⟩ => ⟨S1024, .i1⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S1024, .i32⟩
  | .hbm, ⟨81, _⟩ => ⟨S1024x1, .i32⟩
  | .hbm, ⟨82, _⟩ => ⟨S1024x1, .i32⟩
  | .hbm, ⟨83, _⟩ => ⟨S1024x2, .i32⟩
  | .hbm, ⟨84, _⟩ => ⟨S1024x100000, .f32⟩
  | .hbm, ⟨85, _⟩ => ⟨S_, .f32⟩
  | .hbm, ⟨86, _⟩ => ⟨S1024x100000, .f32⟩
  | .hbm, ⟨87, _⟩ => ⟨S1024x100000, .f32⟩
  | .hbm, ⟨88, _⟩ => ⟨S1024x100000, .f32⟩
  | .hbm, ⟨89, _⟩ => ⟨S_, .f32⟩
  | .hbm, ⟨90, _⟩ => ⟨S1024x100000, .f32⟩
  | .hbm, ⟨91, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  reducesTo_S1024x512_S1024_d1 : S1024x512.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S_S1024x100000 : S_.BroadcastsInDim S1024x100000 (![] : Fin 0 → Fin S1024x100000.rank)
  dot_S1024x512_S512x100000_S1024x100000_1_0_0_1_n_n_wf : DotDims.WF S1024x512 S512x100000 S1024x100000 [1] [0] [0] [1] [] []
  gather_S1024x100000_S1024x2_S1024_n_01_n_n_01_1_11_wf : GatherDims.WF S1024x100000 S1024x2 S1024 [] [0, 1] [] [0, 1] [] 1 ![1, 1]
  scatter_S1024x100000_S1024x2_S1024_n_01_01_1_wf : ScatterDims.WF S1024x100000 S1024x2 S1024 [] [0, 1] [0, 1] 1

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf

class Facts : Prop extends Facts₀ where

variable [Facts]
-- ==== Proof.RefFrame.lean ====
/-
  The reference runs to the end, faults nowhere and leaves its arguments unchanged: its run, read back operation by
  operation, with the result dropped.
-/
import proofs.«417018_j8349416424231_3_alg».proof.Defs
import proofs.«417018_j8349416424231_3_alg».proof.Proof.Gen.ReferenceIdeal
import proofs.«417018_j8349416424231_3_alg».proof.Proof.Gen.Pre_finite_inputs
import proofs.«417018_j8349416424231_3_alg».proof.Proof.Gen.ReferenceIdeal.Run
import proofs.«417018_j8349416424231_3_alg».proof.Proof.Gen.ReferenceIdeal.Read

noncomputable section

open Idealize.ShloMosaic Idealize.ShloMosaic.TcCoe Idealize.SL.Sem

namespace Cert.Proof.RefSide

theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.BodyB.lean ====
/-
  The kernel body at one grid point, for any reading of the floats. It loads the whole weight block, the whole
  resident x block, the label column and the blend column, computes one value — the matrix product of x with the
  row-normalised weight block, overwritten by the blend where a column's global index is the row's label — and stores
  it over the whole output block (after one load of that block whose value it never uses). So the output buffer ends
  holding that one value of the four loaded blocks, and the four input buffers are left as they were.
-/
import proofs.«417018_j8349416424231_3_alg».proof.Proof.Gen.Kernel.Skeleton
import proofs.«417018_j8349416424231_3_alg».proof.Proof.Gen.Kernel.Launch
import proofs.«417018_j8349416424231_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's four access rectangles: each is the whole of its buffer. -/
abbrev rW : Rect S1024x512 := Rect.unit (s := S1024x512) ![0, 0] S1024x512.size inb_S1024x512_S1024x512_0_0
abbrev rC : Rect S1024x1 := Rect.unit (s := S1024x1) ![0, 0] S1024x1.size inb_S1024x1_S1024x1_0_0
abbrev rO : Rect S1024x1024 := Rect.unit (s := S1024x1024) ![0, 0] S1024x1024.size inb_S1024x1024_S1024x1024_0_0

/-- What the output buffer holds after the body, from the four input buffers' contents: its one store. -/
def out4 (i : grid0.Coords) (x0 : Vec F S1024x512 .bf16) (x1 : Vec F S1024x512 .f32) (x2 : Vec F S1024x1 .i32) (x3 : Vec F S1024x1 .f32) :
    Vec F S1024x1024 .f32 :=
  View.canon [⟨rO, k0_pay1 i (View.ld x1 rW) (View.ld x0 rW) (View.ld x2 rC) (View.ld x3 rC)⟩]

/-- The one store is of the whole block, so it covers it. -/
theorem cover4 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body on whole staging memrefs, the inputs' at contents x0 … x3 and the output's at anything, runs to the
    continuation holding the inputs' as they were and the output's at out4 of them. -/
theorem sound_kernel (c : Dev nD) (E : Set ℕ) (i : grid0.Coords)
    (arg1 : Memref sig .tc .vmem S1024x512 .bf16) (harg1 : arg1.IsWhole) (arg2 : Memref sig .tc .vmem S1024x512 .f32) (harg2 : arg2.IsWhole)
    (arg3 : Memref sig .tc .vmem S1024x1 .i32) (harg3 : arg3.IsWhole) (arg4 : Memref sig .tc .vmem S1024x1 .f32) (harg4 : arg4.IsWhole)
    (arg5 : Memref sig .tc .vmem S1024x1024 .f32) (harg5 : arg5.IsWhole)
    (x0 : Vec F S1024x512 .bf16) (x1 : Vec F S1024x512 .f32) (x2 : Vec F S1024x1 .i32) (x3 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 i x0 x1 x2 x3)) -∗ K ⟨⟩))
      ⊢ wp frame (wpE (defs₀ (F := F)) Variants.none c none) E (cc0__gemm_kernel i arg1 harg1 arg2 harg2 arg3 harg3 arg4 harg4 arg5 harg5) K := by
  simp only [cc0__gemm_kernel_eq_skeleton]; unfold cc0__gemm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The origin ![0, 0] is the zero offset. -/
theorem hz2 : (![0, 0] : Fin 2 → Nat) = fun _ => 0 := funext fun a => by fin_cases a <;> rfl

/-- The one whole store's canon is its payload, and a whole load reads the contents: the output buffer ends holding
    the body's value of the four blocks. -/
theorem out4_eq (i : grid0.Coords) (x0 : Vec F S1024x512 .bf16) (x1 : Vec F S1024x512 .f32) (x2 : Vec F S1024x1 .i32) (x3 : Vec F S1024x1 .f32) :
    out4 i x0 x1 x2 x3 = k0_pay1 i x1 x0 x2 x3 := by
  unfold out4
  rw [View.canon_unit_zero hz2]
  simp only [View.ld_unit_zero (S := S1024x512) hz2, View.ld_unit_zero (S := S1024x1) hz2]

end Cert.Kernel.Hand

end
-- ==== Proof.FrameBits.lean ====
/-
  The word-level kernel runs to the end, faults nowhere and leaves its arguments unchanged. Nothing is said of what
  the staging buffers or the result hold: the body runs from any contents of its five buffers (it only loads and stores
  whole blocks), so the proof data constrains nothing it leaves, and the three arguments — two that no window stages
  and the weight array, which is only read — end as they were launched.
-/
import proofs.«417018_j8349416424231_3_alg».proof.Defs
import proofs.«417018_j8349416424231_3_alg».proof.Proof.Gen.Kernel.Frame
import proofs.«417018_j8349416424231_3_alg».proof.Proof.Gen.Pre_finite_inputs
import proofs.«417018_j8349416424231_3_alg».proof.Proof.BodyB
import Idealize.ShloMosaic.Lib.Pipeline.Frame

set_option maxRecDepth 16384

noncomputable section

namespace Cert.Kernel.HandFrame

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

local notation "𝕄" => MT nD τ sig Unit (Elt Bits) ℕ (UR sig nD τ) ℕ

variable (m : (ℓ : Loc nD τ sig) → Buf (Elt Bits) ℓ) (ρ : Dev nD → PrngReg)

/-- The proof data on device c: the arrays as the region finds them; nothing asked of what the body leaves. -/
def rdats (c : Dev nD) : RDat τ (Elt Bits) Unit ℕ (UR sig nD τ) ℕ cfg0 c where
  A w := V (F := Bits) m c (Pipeline.arrRef spec0 w)
  after _ _ _ _ := True
  Φ _ := Pipeline.ΦA spec0 c
  q _ := fullShare
  owed _ := 0

/-- What the body is called with at point t: the five buffers at any contents Y, -/
def bodyPre (c : Dev nD) (t : Fin cfg0.N) (Y : (w : Fin cfg0.W) → (cfg0.win w).block.Idx → Elt Bits (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4))

/-- and what it returns: the five buffers at some contents. -/
def bodyPost (c : Dev nD) (t : Fin cfg0.N) (Y : (w : Fin cfg0.W) → (cfg0.win w).block.Idx → Elt Bits (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X))

/-- The body at any point, from any contents. -/
theorem sound_body (c : Dev nD) (t : Fin cfg0.N) (Y : (w : Fin cfg0.W) → (cfg0.win w).block.Idx → Elt Bits (cfg0.win w).elt) :
    bodyPre m c t Y ⊢ wp frame (wpE (defs₀ (F := Bits)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_kernel (F := Bits) c Set.univ (grid0.coords t) _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists out4 (F := Bits) (grid0.coords t) (Y 0) (Y 1) (Y 2) (Y 3); isplitr; · ipureintro; trivial
    iexact H4

/-- The library's relational body obligation, at every point. -/
theorem body_obligation (c : Dev nD) : (rdats m c).BodyObligation (defs₀ (F := Bits)) Variants.none () Set.univ := fun t Y _ => by
  rw [bigSep_W0, bigSep_W0]
  exact sound_body m c t Y

set_option backward.isDefEq.respectTransparency.types false in
/-- Every weakly fair execution of @main terminates, every windowed array ends at contents the write-backs allow and
    every other buffer as the region found it. -/
theorem run_main : θ_run defs (onTc (τ := τ) (main (F := Bits))) (s₀ m ρ) (Pipeline.RDat.FramePost cfg0 (rdats m) (V (F := Bits) m)) :=
  Pipeline.RDat.θ_run_frame cfgs (0 : Fin 1) launch0 defs₀ Variants.none (rdats m) m ρ main
    (hbody := fun c => body_obligation m c)
    (hshare := fun c w => by unfold RDat.share; split <;> rfl)
    (howed := fun _ _ => rfl) (V := V (F := Bits) m) (hmain := hmain m Variants.none) (hA := fun _ _ => rfl) (hΦ := fun _ _ => rfl)

end Cert.Kernel.HandFrame

namespace Cert.Proof.KernelSide

open Cert.Kernel Cert.Kernel.Gen Cert.Kernel.HandFrame Idealize.ShloMosaic Idealize.ShloMosaic.TcCoe Idealize.SL.Sem

/-- The frame of the word-level kernel: x and the labels bypass the region, and the weight array is an input window's,
    never written. -/
theorem frame_p : Cert.frame_Kernel := fun m ρ _ =>
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     (by
        have h1 := (h c).1 1
        rw [(rdats m c).ArrAt_in 1 rfl] at h1
        exact h1.trans (V_main_arg2 m c))⟩) (run_main m ρ)

end Cert.Proof.KernelSide

end
-- ==== Proof.BodyI.lean ====
/-
  The kernel body at one grid point, for any reading of the floats. It loads the whole weight block, the whole
  resident x block, the label column and the blend column, computes one value — the matrix product of x with the
  row-normalised weight block, overwritten by the blend where a column's global index is the row's label — and stores
  it over the whole output block (after one load of that block whose value it never uses). So the output buffer ends
  holding that one value of the four loaded blocks, and the four input buffers are left as they were.
-/
import proofs.«417018_j8349416424231_3_alg».proof.Proof.Gen.KernelIdeal.Skeleton
import proofs.«417018_j8349416424231_3_alg».proof.Proof.Gen.KernelIdeal.Launch
import proofs.«417018_j8349416424231_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's four access rectangles: each is the whole of its buffer. -/
abbrev rW : Rect S1024x512 := Rect.unit (s := S1024x512) ![0, 0] S1024x512.size inb_S1024x512_S1024x512_0_0
abbrev rC : Rect S1024x1 := Rect.unit (s := S1024x1) ![0, 0] S1024x1.size inb_S1024x1_S1024x1_0_0
abbrev rO : Rect S1024x1024 := Rect.unit (s := S1024x1024) ![0, 0] S1024x1024.size inb_S1024x1024_S1024x1024_0_0

/-- What the output buffer holds after the body, from the four input buffers' contents: its one store. -/
def out4 (i : grid0.Coords) (x0 : Vec F S1024x512 .bf16) (x1 : Vec F S1024x512 .f32) (x2 : Vec F S1024x1 .i32) (x3 : Vec F S1024x1 .f32) :
    Vec F S1024x1024 .f32 :=
  View.canon [⟨rO, k0_pay1 i (View.ld x1 rW) (View.ld x0 rW) (View.ld x2 rC) (View.ld x3 rC)⟩]

/-- The one store is of the whole block, so it covers it. -/
theorem cover4 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body on whole staging memrefs, the inputs' at contents x0 … x3 and the output's at anything, runs to the
    continuation holding the inputs' as they were and the output's at out4 of them. -/
theorem sound_kernel (c : Dev nD) (E : Set ℕ) (i : grid0.Coords)
    (arg1 : Memref sig .tc .vmem S1024x512 .bf16) (harg1 : arg1.IsWhole) (arg2 : Memref sig .tc .vmem S1024x512 .f32) (harg2 : arg2.IsWhole)
    (arg3 : Memref sig .tc .vmem S1024x1 .i32) (harg3 : arg3.IsWhole) (arg4 : Memref sig .tc .vmem S1024x1 .f32) (harg4 : arg4.IsWhole)
    (arg5 : Memref sig .tc .vmem S1024x1024 .f32) (harg5 : arg5.IsWhole)
    (x0 : Vec F S1024x512 .bf16) (x1 : Vec F S1024x512 .f32) (x2 : Vec F S1024x1 .i32) (x3 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 i x0 x1 x2 x3)) -∗ K ⟨⟩))
      ⊢ wp frame (wpE (defs₀ (F := F)) Variants.none c none) E (cc0__gemm_kernel i arg1 harg1 arg2 harg2 arg3 harg3 arg4 harg4 arg5 harg5) K := by
  simp only [cc0__gemm_kernel_eq_skeleton]; unfold cc0__gemm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The origin ![0, 0] is the zero offset. -/
theorem hz2 : (![0, 0] : Fin 2 → Nat) = fun _ => 0 := funext fun a => by fin_cases a <;> rfl

/-- The one whole store's canon is its payload, and a whole load reads the contents: the output buffer ends holding
    the body's value of the four blocks. -/
theorem out4_eq (i : grid0.Coords) (x0 : Vec F S1024x512 .bf16) (x1 : Vec F S1024x512 .f32) (x2 : Vec F S1024x1 .i32) (x3 : Vec F S1024x1 .f32) :
    out4 i x0 x1 x2 x3 = k0_pay1 i x1 x0 x2 x3 := by
  unfold out4
  rw [View.canon_unit_zero hz2]
  simp only [View.ld_unit_zero (S := S1024x512) hz2, View.ld_unit_zero (S := S1024x1) hz2]

end Cert.KernelIdeal.Hand

end
-- ==== Proof.PayIdeal.lean ====
/-
  The kernel body's one stored value read at an entry (n, j) of the output block at the extended reals:
  the blend column's entry n where the block's column index, offset by 1024 times the grid coordinate, is row n's
  label, and otherwise the inner product of x's row n with the block's row j scaled by the reciprocal square root
  of that row's sum of squares. Column j of the value depends on row j of the weight block only.
-/
import proofs.«417018_j8349416424231_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open Idealize.ShloMosaic Idealize.ShloMosaic.ValueIdx
open scoped BigOperators

namespace Cert.Margin.Pay

open Cert.KernelIdeal Cert.KernelIdeal.Gen

/-! ## Layout operations on a column, read at an entry -/

/-- A column `[a, 1]` broadcast to `[a, b]` reads, at `(p, c)`, the column at `(p, 0)`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`: both have row-major position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The row sum, the lane counter, and a select on an equality of words -/

/-- The sum over axis 1 of a `[1024, 512]` array reads, at `r`, the sum over row `r`'s 512 lanes. -/
private theorem rowSum_apply (src : FVec Ideal S1024x512 .f32) (hφ : FKind.Formats .f32)
    (hacc : (0x00000000#32 : BitVec 32) = 0x00000000#32) (r : Fin 1024) :
    multiReduction (F := Ideal) .add [1] S1024 src 0x00000000#32 reduces_S1024x512_S1024 hφ hacc (ix1 r)
      = ∑ k : Fin 512, src (ix2 r k) := by
  refine (Ideal.multiReduction_add_single src 0x00000000#32 reduces_S1024x512_S1024 hφ hacc (ix1 r)).trans ?_
  refine Finset.sum_congr rfl fun k _ => congrArg src (funext fun a => Fin.ext ?_)
  match a with
  | ⟨0, _⟩ => rfl
  | ⟨1, _⟩ => rfl

/-- The counter along axis 1 reads, at `(n, j)`, the column number `j`. -/
private theorem laneIota_apply (n j : Fin 1024) :
    iota .tc S1024x1024 32 [1] iota_S1024x1024_d1_w32 (ix2 n j) = BitVec.ofNat 32 j.val :=
  iota_single_apply .tc S1024x1024 32 1 iota_S1024x1024_d1_w32 (ix2 n j)

/-- A select on a comparison of two words for equality is the `if` on their equality. -/
private theorem select_cmpi_eq {α : Type} {w : Nat} (a b : BitVec w) (x y : α) :
    Scalar.select (IntOp.cmpi .eq a b) x y = if a = b then x else y := by
  unfold Scalar.select
  exact if_congr StableHlo.Predicate.cmpi_eq_iff rfl rfl

/-! ## The product, both operands contracted along their lanes

The operand indices of the contraction at output index `i` and contraction index `q`, axis by axis: the left operand's
are `(i 0, q)`, the right operand's `(i 1, q)`. -/

/-- The output's row coordinate is the left operand's row. -/
private theorem lhs_gemm_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The contraction coordinate is the left operand's lane. -/
private theorem lhs_gemm_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The output's column coordinate is the right operand's row. -/
private theorem rhs_gemm_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The contraction coordinate is the right operand's lane. -/
private theorem rhs_gemm_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into a zero accumulator: entry `(n, j)` is the inner product of the left operand's row `n` with the
    right operand's row `j`, the contraction's sum re-indexed by its one coordinate. -/
private theorem gemm_apply (x y : FVec Ideal S1024x512 .bf16) (n j : Fin 1024) :
    matmul dot_S1024x512_S1024x512_S1024x1024_1_1_0_0_n_n none x y (constant (F := Ideal) S1024x1024 .f32 0x00000000#32) (ix2 n j)
      = ∑ k : Fin 512, x (ix2 n k) * y (ix2 j k) := by
  refine (Ideal.matmul_constant_zero_apply dot_S1024x512_S1024x512_S1024x1024_1_1_0_0_n_n none x y (ix2 n j)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 n j) ((contrEquiv1 dot_S1024x512_S1024x512_S1024x1024_1_1_0_0_n_n 512 rfl rfl).symm k) = ix2 n k := funext fun a => Fin.ext (by
    match a with
    | ⟨0, _⟩ => exact lhs_gemm_0 _ _
    | ⟨1, _⟩ => exact (lhs_gemm_1 _ _).trans hk)
  have er : dot_S1024x512_S1024x512_S1024x1024_1_1_0_0_n_n.rhsIdx (ix2 n j) ((contrEquiv1 dot_S1024x512_S1024x512_S1024x1024_1_1_0_0_n_n 512 rfl rfl).symm k) = ix2 j k := funext fun a => Fin.ext (by
    match a with
    | ⟨0, _⟩ => exact rhs_gemm_0 _ _
    | ⟨1, _⟩ => exact (rhs_gemm_1 _ _).trans hk)
  rw [el, er]

/-! ## The three operands of the select at an entry -/

/-- The right factor of the product: the weight block's entry `(j, k)` scaled by the reciprocal square root of row `j`'s
    sum of squares (the change of format is the identity on extended reals). -/
private theorem scaled_apply (wb : FVec Ideal S1024x512 .f32) (hφ : FKind.Formats .f32)
    (hacc : (0x00000000#32 : BitVec 32) = 0x00000000#32) (j : Fin 1024) (k : Fin 512) :
    truncf .bf16 (mulf wb (broadcastTo S1024x512 (rsqrt (shapeCast S1024x1
        (multiReduction (F := Ideal) .add [1] S1024 (mulf wb wb) 0x00000000#32 reduces_S1024x512_S1024 hφ hacc)
        shapeCasts_S1024_S1024x1)) broadcasts_S1024x1_S1024x512)) bitsLt_bf16_f32 (ix2 j k)
      = wb (ix2 j k) * Ideal.rsqrt (∑ k' : Fin 512, wb (ix2 j k') * wb (ix2 j k')) := by
  refine (truncf_apply _ bitsLt_bf16_f32 (ix2 j k)).trans ?_
  refine (mulf_apply wb _ (ix2 j k)).trans ?_
  refine congrArg (wb (ix2 j k) * ·) ?_
  refine (broadcastTo_a1_ab_apply _ broadcasts_S1024x1_S1024x512 j k).trans ?_
  refine congrArg Ideal.rsqrt ?_
  refine (shapeCast_a_a1_apply _ shapeCasts_S1024_S1024x1 j 0).trans ?_
  exact rowSum_apply (mulf wb wb) hφ hacc j

/-- The condition at `(n, j)` compares the block's column number `j`, offset by 1024 times the grid coordinate, with row
    `n`'s label. -/
private theorem label_apply (i : grid0.Coords) (tb : IVec S1024x1 32) (n j : Fin 1024) :
    cmpi .eq (addi (broadcast S1024x1024 (Scalar.muli (BitVec.ofNat 32 (i 0).val) 1024#32))
        (iota .tc S1024x1024 32 [1] iota_S1024x1024_d1_w32))
      (broadcastTo S1024x1024 (shapeCast S1024x1 tb shapeCasts_S1024x1_S1024x1) broadcasts_S1024x1_S1024x1024) (ix2 n j)
      = IntOp.cmpi .eq (BitVec.ofNat 32 (i 0).val * 1024#32 + BitVec.ofNat 32 j.val) (tb (ix2 n (0 : Fin 1))) := by
  show IntOp.cmpi .eq (Scalar.muli (BitVec.ofNat 32 (i 0).val) 1024#32 + iota .tc S1024x1024 32 [1] iota_S1024x1024_d1_w32 (ix2 n j))
      (broadcastTo S1024x1024 (shapeCast S1024x1 tb shapeCasts_S1024x1_S1024x1) broadcasts_S1024x1_S1024x1024 (ix2 n j)) = _
  rw [laneIota_apply n j, broadcastTo_a1_ab_apply _ broadcasts_S1024x1_S1024x1024 n j, shapeCast_self]
  rfl

/-- The blend column broadcast over the block's columns reads, at `(n, j)`, row `n`'s entry. -/
private theorem blend_apply (cb : FVec Ideal S1024x1 .f32) (n j : Fin 1024) :
    broadcastTo S1024x1024 (shapeCast S1024x1 (shapeCast S1024x1 cb shapeCasts_S1024x1_S1024x1) shapeCasts_S1024x1_S1024x1)
      broadcasts_S1024x1_S1024x1024 (ix2 n j) = cb (ix2 n (0 : Fin 1)) := by
  refine (broadcastTo_a1_ab_apply _ broadcasts_S1024x1_S1024x1024 n j).trans ?_
  rw [shapeCast_self, shapeCast_self]

/-- The stored value at (n, j). -/
theorem pay_apply [Cert.KernelIdeal.Facts] (i : grid0.Coords) (wb : FVec Ideal S1024x512 .f32) (xb : FVec Ideal S1024x512 .bf16)
    (tb : IVec S1024x1 32) (cb : FVec Ideal S1024x1 .f32) (n j : Fin 1024) :
    k0_pay1 (F := Ideal) i wb xb tb cb (ix2 n j)
      = if BitVec.ofNat 32 (i 0).val * 1024#32 + BitVec.ofNat 32 j.val = tb (ix2 n (0 : Fin 1)) then cb (ix2 n (0 : Fin 1))
        else ∑ k : Fin 512, xb (ix2 n k) * (wb (ix2 j k) * Ideal.rsqrt (∑ k' : Fin 512, wb (ix2 j k') * wb (ix2 j k'))) := by
  unfold k0_pay1
  -- the select at the entry; its condition, its first and its second operand there, one after the other
  refine (select_apply _ _ _ (ix2 n j)).trans ?_
  refine (congr (congr (congrArg Scalar.select (label_apply i tb n j)) (blend_apply cb n j)) ?_).trans (select_cmpi_eq _ _ _ _)
  -- the product at the entry, term by term of its sum
  refine (gemm_apply _ _ n j).trans ?_
  refine Finset.sum_congr rfl fun k _ => ?_
  rw [shapeCast_self]
  exact congrArg (xb (ix2 n k) * ·) (scaled_apply wb _ _ j k)

end Cert.Margin.Pay

end
-- ==== Proof.Spec.lean ====
/-
  The function both programs compute, written once over the argument arrays: x : [1024, 512], the labels
  tg : [1024] (32-bit words), w : [100000, 512], every float an extended real.

  Row c of w is normalised by its Euclidean norm, the logit of sample n against class c is the inner product of
  x's row n with that normalised row, and the result is the logit everywhere except at the label's cell
  (n, tg n), which holds the blend  (margin + λ · logit) / (1 + λ)  of the quadruple-angle margin
  margin = |x_n| · (s₃ · (8 cos⁴ − 8 cos² + 1) + s₄)  with  cos = logit / |x_n|.
  The two literals λ and 1 + λ are kept as their binary words; that the second is the first plus one is a fact
  about the words, proved where it is used.
-/
import Idealize.ShloMosaic.PureOps.Ideal
import Idealize.ShloMosaic.Lib.ValueIdx
import Mathlib.Algebra.BigOperators.Group.Finset.Basic

noncomputable section

open Idealize.ShloMosaic Idealize.ShloMosaic.ValueIdx
open scoped BigOperators

namespace Cert.Margin

/-- The three argument arrays' index types and the result's, at their literal extents. -/
abbrev SX : Shape := ⟨2, ![1024, 512]⟩
abbrev ST : Shape := ⟨1, ![1024]⟩
abbrev SW : Shape := ⟨2, ![100000, 512]⟩
abbrev SO : Shape := ⟨2, ![1024, 100000]⟩

/-- The sum of the squares of row c of w. -/
def rowSq (w : SW.Idx → EReal) (c : Fin 100000) : EReal := ∑ k : Fin 512, w (ix2 c k) * w (ix2 c k)

/-- Entry k of row c of w divided by the row's Euclidean norm. -/
def wdiv (w : SW.Idx → EReal) (c : Fin 100000) (k : Fin 512) : EReal :=
  Ideal.div (w (ix2 c k)) (Ideal.sqrt (rowSq w c))

/-- The inner product of row n of x with the normalised row c of w. -/
def logit (x : SX.Idx → EReal) (w : SW.Idx → EReal) (n : Fin 1024) (c : Fin 100000) : EReal :=
  ∑ k : Fin 512, x (ix2 n k) * wdiv w c k

/-- The Euclidean norm of row n of x. -/
def xnorm (x : SX.Idx → EReal) (n : Fin 1024) : EReal := Ideal.sqrt (∑ k : Fin 512, x (ix2 n k) * x (ix2 n k))

/-- The float literals 1, 2, 3, 8, λ and 1 + λ as their binary32 words. -/
def one : EReal := Ideal.ofBits .f32 0x3F800000#32
def two : EReal := Ideal.ofBits .f32 0x40000000#32
def three : EReal := Ideal.ofBits .f32 0x40400000#32
def eight : EReal := Ideal.ofBits .f32 0x41000000#32
def lam : EReal := Ideal.ofBits .f32 0x445F36DB#32
def lam1 : EReal := Ideal.ofBits .f32 0x445F76DB#32

/-- The quadruple-angle margin of a logit lg against a norm xn: with cos = lg / xn, s₀ = sign cos,
    s₃ = s₀ · sign (2 cos² − 1) and s₄ = 2 s₀ + s₃ − 3, it is  xn · (s₃ · (8 cos⁴ − 8 cos² + 1) + s₄). -/
def margin (lg xn : EReal) : EReal :=
  let cs := Ideal.div lg xn
  let c2 := cs * cs
  let c4 := c2 * c2
  let s0 := Ideal.sign cs
  let s3 := s0 * Ideal.sign (two * c2 - one)
  let s4 := two * s0 + s3 - three
  xn * (s3 * (eight * c4 - eight * c2 + one) + s4)

/-- The label cell's value: the margin blended with the logit, (margin + λ · lg) / (1 + λ). -/
def comb (lg xn : EReal) : EReal := Ideal.div (margin lg xn + lam * lg) lam1

/-- The result at sample n and class c: the blend at the label's cell, the logit elsewhere. -/
def Gat (x : SX.Idx → EReal) (tg : ST.Idx → BitVec 32) (w : SW.Idx → EReal) (n : Fin 1024) (c : Fin 100000) : EReal :=
  if tg (ix1 n) = BitVec.ofNat 32 c.val then comb (logit x w n c) (xnorm x n) else logit x w n c

/-- The result array. -/
def G (x : SX.Idx → EReal) (tg : ST.Idx → BitVec 32) (w : SW.Idx → EReal) : SO.Idx → EReal :=
  fun i => Gat x tg w ⟨(i 0).val, idx2_lt0 i⟩ ⟨(i 1).val, idx2_lt1 i⟩

theorem G_ix2 (x : SX.Idx → EReal) (tg : ST.Idx → BitVec 32) (w : SW.Idx → EReal) (n : Fin 1024) (c : Fin 100000) :
    G x tg w (ix2 n c) = Gat x tg w n c := rfl

/-- What the precondition says of the arguments: every entry of x and of w is a real number, every label lies in
    [0, 100000), and no row of w is the zero row (its sum of squares is positive). -/
structure Hyp (x : SX.Idx → EReal) (tg : ST.Idx → BitVec 32) (w : SW.Idx → EReal) : Prop where
  x_real : ∀ i, ∃ r : ℝ, x i = (r : EReal)
  w_real : ∀ i, ∃ r : ℝ, w i = (r : EReal)
  tg_lo : ∀ n : Fin 1024, 0 ≤ (tg (ix1 n)).toInt
  tg_hi : ∀ n : Fin 1024, (tg (ix1 n)).toInt < 100000
  row_pos : ∀ c : Fin 100000, 0 < rowSq w c

end Cert.Margin

end
-- ==== Proof.KernelHost.lean ====
/-
  What the three host-computed windows hold when the kernel's region is entered, at the extended reals:
  the x window is x itself (the change of format is the identity), the label column is the labels reshaped, and the
  blend column's entry n is the blend of the label logit of sample n — the inner product of x's row n with the
  gathered, normalised label row — with its margin.
-/
import proofs.«417018_j8349416424231_3_alg».proof.Proof.Gen.KernelIdeal.Frame
import proofs.«417018_j8349416424231_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx Idealize.SL.Sem
open scoped BigOperators

namespace Cert.Margin.KHost

open Cert.KernelIdeal Cert.KernelIdeal.Gen

variable (m : (ℓ : Loc nD τ sig) → Buf (Elt Ideal) ℓ)

/-- The three argument arrays as launched, typed at their literal shapes. -/
abbrev xA (c : Dev nD) : S1024x512.Idx → EReal := m ((c : Thread nD τ).loc main_arg0)
abbrev tA (c : Dev nD) : S1024.Idx → BitVec 32 := m ((c : Thread nD τ).loc main_arg1)
abbrev wA (c : Dev nD) : S100000x512.Idx → EReal := m ((c : Thread nD τ).loc main_arg2)

/-! ## The host operations before the region, as functions of the argument arrays -/

/-- A float literal broadcast to a vector of 1024 entries. -/
private abbrev bc (b : BitVec 32) : FVec Ideal S1024 .f32 :=
  broadcastInDim S1024 ![] bcast_S_S1024 (constant (F := Ideal) S_ .f32 b)

/-- The start-index column: each label, with the class count added when it is negative as a signed word. -/
private def hIdx (tg : IVec S1024 32) : IVec S1024x1 32 :=
  broadcastInDim S1024x1 ![0] bcast_S1024_S1024x1_0
    (select (cmpi .slt tg (broadcastInDim S1024 ![] bcast_S_S1024 (constantI S_ 32 0#32)))
      (addi tg (broadcastInDim S1024 ![] bcast_S_S1024 (constantI S_ 32 100000#32))) tg)

/-- The gathered rows: row n is the row of w the start index n names. -/
private def hRow (w : FVec Ideal S100000x512 .f32) (tg : IVec S1024 32) : FVec Ideal S1024x512 .f32 :=
  Host.gather gather_S100000x512_S1024x1_S1024x512_1_0_n_n_0_1_1512 w (hIdx tg)

/-- The sum of each row. -/
private def hSum (y : FVec Ideal S1024x512 .f32) : FVec Ideal S1024 .f32 :=
  Host.reduceAdd y (constant (F := Ideal) S_ .f32 0x00000000#32) reducesTo_S1024x512_S1024_d1 h_S_

/-- The Euclidean norm of each row, as a column. -/
private def hNormCol (g : FVec Ideal S1024x512 .f32) : FVec Ideal S1024x1 .f32 :=
  Host.sqrt (broadcastInDim S1024x1 ![0] bcast_S1024_S1024x1_0 (hSum (mulf g g)))

/-- The Euclidean norm of each row, as a vector. -/
private def hNorm (x : FVec Ideal S1024x512 .f32) : FVec Ideal S1024 .f32 :=
  Host.sqrt (hSum (mulf x x))

/-- The inner product of each row of x with the same row of g divided by its norm. -/
private def hLogit (x g : FVec Ideal S1024x512 .f32) : FVec Ideal S1024 .f32 :=
  hSum (mulf x (Host.divf g (broadcastInDim S1024x512 ![0, 1] bcast_S1024x1_S1024x512_0_1 (hNormCol g))))

/-- The blend of a logit vector a with its margin against the norm vector b, operation by operation. -/
private def hBlend (a b : FVec Ideal S1024 .f32) : FVec Ideal S1024 .f32 :=
  let v13 := Host.divf a b
  let v14 := mulf v13 v13
  let v15 := mulf v14 v14
  let v16 := Host.sign v13
  let v18 := mulf (bc 0x40000000#32) v14
  let v20 := subf v18 (bc 0x3F800000#32)
  let v21 := Host.sign v20
  let v22 := mulf v16 v21
  let v24 := mulf (bc 0x40000000#32) v16
  let v25 := addf v24 v22
  let v27 := subf v25 (bc 0x40400000#32)
  let v29 := mulf (bc 0x41000000#32) v15
  let v31 := mulf (bc 0x41000000#32) v14
  let v32 := subf v29 v31
  let v34 := addf v32 (bc 0x3F800000#32)
  let v35 := mulf v22 v34
  let v36 := addf v35 v27
  let v37 := mulf b v36
  let v39 := mulf (bc 0x445F36DB#32) a
  let v40 := addf v37 v39
  Host.divf v40 (bc 0x445F76DB#32)

/-! ## The operations read at an index -/

/-- A class number as a 32-bit word is the number itself … -/
private theorem word_toNat (c : Nat) (hc : c < 100000) : (BitVec.ofNat 32 c).toNat = c := by
  rw [BitVec.toNat_ofNat]; exact Nat.mod_eq_of_lt (by omega)

/-- … is not negative as a signed word … -/
private theorem word_slt (c : Nat) (hc : c < 100000) : (BitVec.ofNat 32 c).slt 0#32 = false := by
  rw [BitVec.slt_zero_eq_msb, BitVec.msb_eq_decide, word_toNat c hc]
  exact decide_eq_false (by omega)

/-- … and read signed it is the number again. -/
private theorem word_toInt (c : Nat) (hc : c < 100000) : (BitVec.ofNat 32 c).toInt.toNat = c := by
  rw [BitVec.toInt_eq_toNat_cond, word_toNat c hc, if_pos (by omega)]
  exact Int.toNat_natCast c

/-- The blend chain at an entry is the specification's blend of the two entries. -/
private theorem hBlend_apply (a b : FVec Ideal S1024 .f32) (i : S1024.Idx) :
    hBlend a b i = Cert.Margin.comb (a i) (b i) := rfl

/-- A row sum at n is the sum of the row's entries (the initial value is zero). -/
private theorem hSum_apply (y : FVec Ideal S1024x512 .f32) (n : Fin 1024) :
    hSum y (ix1 n) = ∑ k : Fin 512, y (ix2 n k) := by
  unfold hSum
  simp only [Host.reduceAdd, Ideal.hostReduceAdd_def]
  rw [Ideal.hostReduceAdd_single reducesTo_S1024x512_S1024_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The norm vector at n is the Euclidean norm of row n. -/
private theorem hNorm_apply (x : FVec Ideal S1024x512 .f32) (n : Fin 1024) :
    hNorm x (ix1 n) = Ideal.sqrt (∑ k : Fin 512, x (ix2 n k) * x (ix2 n k)) := by
  show Ideal.sqrt (hSum (mulf x x) (ix1 n)) = _
  rw [hSum_apply]
  rfl

/-- The norm column at (n, 0) is the Euclidean norm of row n. -/
private theorem hNormCol_apply (g : FVec Ideal S1024x512 .f32) (n : Fin 1024) (u : Fin 1) :
    hNormCol g (ix2 n u) = Ideal.sqrt (∑ k : Fin 512, g (ix2 n k) * g (ix2 n k)) := by
  show Ideal.sqrt (broadcastInDim S1024x1 ![0] bcast_S1024_S1024x1_0 (hSum (mulf g g)) (ix2 n u)) = _
  rw [broadcastInDim_apply _ bcast_S1024_S1024x1_0 (hSum (mulf g g)) (ix2 n u) (ix1 n) (fun a => match a with
    | ⟨0, _⟩ => by show n.val = if (1024 : Nat) = 1 then 0 else n.val; rw [if_neg (by decide)])]
  rw [hSum_apply]
  rfl

/-- The logit vector at n: the inner product of row n of x with row n of g over that row's norm. -/
private theorem hLogit_apply (x g : FVec Ideal S1024x512 .f32) (n : Fin 1024) :
    hLogit x g (ix1 n)
      = ∑ k : Fin 512, x (ix2 n k) * Ideal.div (g (ix2 n k)) (Ideal.sqrt (∑ k' : Fin 512, g (ix2 n k') * g (ix2 n k'))) := by
  unfold hLogit
  rw [hSum_apply]
  refine Finset.sum_congr rfl fun k _ => ?_
  show x (ix2 n k) * Ideal.div (g (ix2 n k))
      (broadcastInDim S1024x512 ![0, 1] bcast_S1024x1_S1024x512_0_1 (hNormCol g) (ix2 n k)) = _
  rw [broadcastInDim_apply _ bcast_S1024x1_S1024x512_0_1 (hNormCol g) (ix2 n k) (ix2 n (0 : Fin 1)) (fun a => match a with
    | ⟨0, _⟩ => by show n.val = if (1024 : Nat) = 1 then 0 else n.val; rw [if_neg (by decide)]
    | ⟨1, _⟩ => by show 0 = if (1 : Nat) = 1 then 0 else k.val; rw [if_pos rfl])]
  rw [hNormCol_apply]

/-- The start-index column at row n is label n when the label is a class number. -/
private theorem hIdx_apply (tg : IVec S1024 32) (n : Fin 1024) (cT : Fin 100000)
    (h : tg (ix1 n) = BitVec.ofNat 32 cT.val) (u : Fin 1) : hIdx tg (ix2 n u) = BitVec.ofNat 32 cT.val := by
  unfold hIdx
  rw [broadcastInDim_apply _ bcast_S1024_S1024x1_0 _ (ix2 n u) (ix1 n) (fun a => match a with
    | ⟨0, _⟩ => by show n.val = if (1024 : Nat) = 1 then 0 else n.val; rw [if_neg (by decide)])]
  show Scalar.select (IntOp.cmpi .slt (tg (ix1 n)) 0#32) (IntOp.addi (tg (ix1 n)) 100000#32) (tg (ix1 n)) = _
  rw [h]
  show Scalar.select (BitVec.ofBool ((BitVec.ofNat 32 cT.val).slt 0#32)) _ _ = _
  rw [word_slt cT.val cT.isLt]
  exact select_zero _ _

private abbrev gdims := gather_S100000x512_S1024x1_S1024x512_1_0_n_n_0_1_1512

/-- The gather read at (n, k): the operand at the row the start index (n, 0) names — read signed and clamped to the
    rows there are — and at column k. -/
private theorem gather_apply (w : FVec Ideal S100000x512 .f32) (idx : IVec S1024x1 32) (n : Fin 1024) (k : Fin 512) :
    Host.gather gdims w idx (ix2 n k)
      = w (ix2 (⟨min (idx (ix2 n (0 : Fin 1))).toInt.toNat (100000 - 1), by omega⟩ : Fin 100000) k) := by
  unfold Host.gather
  refine congrArg w (funext fun a => Fin.ext ?_)
  match a with
  | ⟨0, _⟩ =>
    show gdims.start (ix2 n k) idx 0 + gdims.batchCoord (ix2 n k) 0 + gdims.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gdims.startIndexMap from List.mem_singleton.mpr rfl)]
    have hsi : gdims.siIdx (ix2 n k) ⟨List.idxOf (0 : Fin 2) gdims.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gdims.start (ix2 n k) idx 1 + gdims.batchCoord (ix2 n k) 1 + gdims.offCoord (ix2 n k) 1 = _
    rw [GatherDims.batchCoord_eq_zero _ _ _ List.not_mem_nil]
    unfold GatherDims.start
    rw [dif_neg (show ¬ (1 : Fin 2) ∈ gdims.startIndexMap from fun h => absurd (List.mem_singleton.mp h) (by decide))]
    simp only [Nat.add_zero, Nat.zero_add]
    unfold GatherDims.offCoord
    rw [dif_pos (show (1 : Fin 2) ∈ gdims.sKept from (GatherDims.mem_sKept _ _).mpr
      ⟨fun h => absurd (List.mem_singleton.mp h) (by decide), List.not_mem_nil⟩)]
    rfl

/-- The gathered row n is row cT of w when the start index n is the class number cT. -/
private theorem hRow_apply (w : FVec Ideal S100000x512 .f32) (tg : IVec S1024 32) (n : Fin 1024) (cT : Fin 100000)
    (h : tg (ix1 n) = BitVec.ofNat 32 cT.val) (k : Fin 512) : hRow w tg (ix2 n k) = w (ix2 cT k) := by
  unfold hRow
  rw [gather_apply]
  refine congrArg w (congrArg (fun r => ix2 r k) (Fin.ext ?_))
  show min (hIdx tg (ix2 n (0 : Fin 1))).toInt.toNat (100000 - 1) = cT.val
  rw [hIdx_apply tg n cT h, word_toInt cT.val cT.isLt]
  have := cT.isLt
  omega

/-! ## The three windows -/

set_option maxHeartbeats 2000000 in
/-- The blend column's array, as those functions of the argument arrays: the operations that write it, composed. -/
private theorem blend_column (c : Dev nD) : (V (F := Ideal) m c main_v45 : S1024x1.Idx → EReal)
      = shapeCast S1024x1 (hBlend (hLogit (xA m c) (hRow (wA m c) (tA m c))) (hNorm (xA m c))) shapeCasts_S1024_S1024x1 := by
  dsimp only [Gen.V]
  simp only [Gen.hostOps0, Gen.hostOps0_1, Gen.hostOps0_2, Gen.hostOps0_3, Gen.hostOps0_4, List.flatten_cons, List.flatten_nil,
      List.append_nil, List.cons_append, List.nil_append]
  after_results_simp
  rfl

/-- The x window's array is x. -/
theorem V_x (c : Dev nD) : (V (F := Ideal) m c main_v43 : S1024x512.Idx → EReal) = xA m c := by
  have e : (V (F := Ideal) m c main_v43 : S1024x512.Idx → EReal)
      = (truncf .bf16 (xA m c : FVec Ideal S1024x512 .f32) bitsLt_bf16_f32 : FVec Ideal S1024x512 .bf16) := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
  rw [e]
  funext i
  exact truncf_apply _ _ i

/-- The label column's entry n is label n. -/
theorem V_tg (c : Dev nD) (n : Fin 1024) :
    (V (F := Ideal) m c main_v44 : S1024x1.Idx → BitVec 32) (ix2 n (0 : Fin 1)) = tA m c (ix1 n) := by
  have e : (V (F := Ideal) m c main_v44 : S1024x1.Idx → BitVec 32)
      = shapeCast S1024x1 (tA m c) shapeCasts_S1024_S1024x1 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  refine shapeCast_apply _ _ _ (ix1 n) ?_
  rw [Shape.rowMajor_val_two, Shape.rowMajor_val_one]
  show n.val = n.val * 1 + 0
  omega

/-- The blend column's entry n, when label n is the class cT: the blend of the logit of sample n against class cT. -/
theorem V_comb (c : Dev nD) (n : Fin 1024) (cT : Fin 100000) (h : tA m c (ix1 n) = BitVec.ofNat 32 cT.val) :
    (V (F := Ideal) m c main_v45 : S1024x1.Idx → EReal) (ix2 n (0 : Fin 1))
      = Cert.Margin.comb (Cert.Margin.logit (xA m c) (wA m c) n cT) (Cert.Margin.xnorm (xA m c) n) := by
  refine (congrFun (blend_column m c) (ix2 n (0 : Fin 1))).trans ?_
  refine (shapeCast_apply _ _ _ (ix1 n) ?_).trans ?_
  · rw [Shape.rowMajor_val_two, Shape.rowMajor_val_one]
    show n.val = n.val * 1 + 0
    omega
  rw [hBlend_apply, hLogit_apply, hNorm_apply]
  simp only [hRow_apply (wA m c) (tA m c) n cT h]
  rfl

end Cert.Margin.KHost

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.SpecLaws.lean ====
/-
  The three laws that join the two programs on real entries.
  (1) For a real a and a positive real s,  a / √s = a · (√s)⁻¹ : dividing by the norm and scaling by the reciprocal
      square root are one operation off the zero row.
  (2) For a real a,  (a + λ a) / (1 + λ) = a : the two literals' words differ by exactly one, so the blend of a value
      with itself is that value.
  (3) Sums and products of reals are reals, so every logit is a real number.
-/
import proofs.«417018_j8349416424231_3_alg».proof.Proof.Spec
import proofs.«417018_j8349416424231_3_alg».proof.Proof.LibReal

noncomputable section

open Idealize.ShloMosaic Idealize.ShloMosaic.ValueIdx Cert.LibReal
open scoped BigOperators

namespace Cert.Margin

/-- The square root of a positive real is a positive real. -/
private theorem sqrt_pos_real {s : EReal} (hs : IsReal s) (hpos : 0 < s) :
    ∃ q : ℝ, q ≠ 0 ∧ Ideal.sqrt s = (q : EReal) := by
  obtain ⟨s, rfl⟩ := hs
  have hs0 : 0 < s := EReal.coe_pos.mp hpos
  exact ⟨Real.sqrt s, (Real.sqrt_pos.mpr hs0).ne', by
    rw [Ideal.sqrt_coe, if_neg (not_lt.mpr hs0.le)]⟩

/-- Dividing a real by the square root of a positive real is multiplying by its reciprocal square root. -/
theorem div_sqrt_eq_mul_rsqrt {a s : EReal} (ha : IsReal a) (hs : IsReal s) (hpos : 0 < s) :
    Ideal.div a (Ideal.sqrt s) = a * Ideal.rsqrt s := by
  obtain ⟨a, rfl⟩ := ha
  obtain ⟨s, rfl⟩ := hs
  have hs0 : 0 < s := EReal.coe_pos.mp hpos
  have hq : Real.sqrt s ≠ 0 := (Real.sqrt_pos.mpr hs0).ne'
  -- s > 0 : the square root is the real √s ≠ 0, the reciprocal square root is the real (√s)⁻¹, and a division by
  -- the nonzero real √s is the product with 1 / √s = (√s)⁻¹.
  rw [Ideal.sqrt_coe, if_neg (not_lt.mpr hs0.le), Ideal.div_coe hq, Ideal.rsqrt_coe,
    if_neg (not_lt.mpr hs0.le), if_neg hs0.ne', one_div]

/-- The word 0x445F36DB : sign 0, exponent 136, fraction 6239963, so (2²³ + 6239963) · 2⁻¹⁴ = 14628571 / 16384. -/
private theorem lam_val : lam = ((14628571 / 16384 : ℝ) : EReal) := by
  unfold lam
  simp [Ideal.ofBits, Ideal.ieee, -EReal.coe_mul]
  norm_num

/-- The word 0x445F76DB : sign 0, exponent 136, fraction 6256347, so (2²³ + 6256347) · 2⁻¹⁴ = 14644955 / 16384. -/
private theorem lam1_val : lam1 = ((14644955 / 16384 : ℝ) : EReal) := by
  unfold lam1
  simp [Ideal.ofBits, Ideal.ieee, -EReal.coe_mul]
  norm_num

/-- The word of 1 + λ denotes the word of λ plus one. -/
theorem lam1_eq : lam1 = lam + 1 := by
  -- 14644955 = 14628571 + 16384.
  rw [lam_val, lam1_val, ← EReal.coe_one, ← EReal.coe_add]
  congr 1
  norm_num

/-- λ is a real number, and 1 + λ is a nonzero one. -/
theorem lam_real : IsReal lam := by
  exact ⟨_, lam_val⟩
theorem lam1_real : IsReal lam1 := by
  exact ⟨_, lam1_val⟩
theorem lam1_ne_zero : lam1 ≠ 0 := by
  rw [lam1_val]
  intro h
  have h0 : (14644955 / 16384 : ℝ) = 0 := EReal.coe_eq_zero.mp h
  norm_num at h0

/-- The blend of a real with itself is that real: (a + λ a) / (1 + λ) = a. -/
theorem blend_self {a : EReal} (ha : IsReal a) : Ideal.div (a + lam * a) lam1 = a := by
  obtain ⟨r, rfl⟩ := ha
  have h1 : (14644955 / 16384 : ℝ) ≠ 0 := by norm_num
  -- On reals: (r + (14628571/16384) r) · (16384/14644955) = r · (14644955/16384) · (16384/14644955) = r.
  rw [lam_val, lam1_val, Ideal.div_coe h1, ← EReal.coe_mul, ← EReal.coe_add, ← EReal.coe_mul]
  congr 1
  ring

/-- Under the hypotheses every row's sum of squares, every normalised entry and every logit is a real number. -/
theorem rowSq_real {x : SX.Idx → EReal} {tg : ST.Idx → BitVec 32} {w : SW.Idx → EReal} (h : Hyp x tg w) (c : Fin 100000) :
    IsReal (rowSq w c) := by
  unfold rowSq
  exact IsReal.sum _ _ fun k _ => IsReal.mul (h.w_real _) (h.w_real _)
theorem wdiv_real {x : SX.Idx → EReal} {tg : ST.Idx → BitVec 32} {w : SW.Idx → EReal} (h : Hyp x tg w) (c : Fin 100000) (k : Fin 512) :
    IsReal (wdiv w c k) := by
  -- The row's sum of squares is a positive real, so its square root is a nonzero real and the quotient is real.
  obtain ⟨q, hq, hsq⟩ := sqrt_pos_real (rowSq_real h c) (h.row_pos c)
  unfold wdiv
  rw [hsq]
  exact IsReal.div (h.w_real _) (IsReal.coe q) (fun h0 => hq (EReal.coe_eq_zero.mp h0))
theorem logit_real {x : SX.Idx → EReal} {tg : ST.Idx → BitVec 32} {w : SW.Idx → EReal} (h : Hyp x tg w) (n : Fin 1024) (c : Fin 100000) :
    IsReal (logit x w n c) := by
  unfold logit
  exact IsReal.sum _ _ fun k _ => IsReal.mul (h.x_real _) (wdiv_real h c k)

/-- The kernel's form of a logit — each entry of the row scaled by the reciprocal square root of the row's sum of
    squares — is the logit. -/
theorem logit_rsqrt {x : SX.Idx → EReal} {tg : ST.Idx → BitVec 32} {w : SW.Idx → EReal} (h : Hyp x tg w) (n : Fin 1024) (c : Fin 100000) :
    (∑ k : Fin 512, x (ix2 n k) * (w (ix2 c k) * Ideal.rsqrt (rowSq w c))) = logit x w n c := by
  unfold logit wdiv
  refine Finset.sum_congr rfl fun k _ => ?_
  rw [div_sqrt_eq_mul_rsqrt (h.w_real _) (rowSq_real h c) (h.row_pos c)]

end Cert.Margin

end
-- ==== Proof.KernelRun.lean ====
/-
  The idealized kernel's run. At grid point t the pipeline stages the whole x block, the label and blend columns
  (fetched once), and rows 1024 t … of w — at the last point only the 672 rows inside the array, the buffer's other
  rows holding words nothing names — and writes back columns 1024 t … of the result, cut the same way.
  Column j of what the body stores depends on row j of the staged weight block only, so the columns that are
  written back do not depend on the unnamed rows: the proof data names the staged weight block with those rows set to
  zero and the stored block computed from it, and the obligation states both buffers on their parts inside the arrays.
-/
import proofs.«417018_j8349416424231_3_alg».proof.Proof.Gen.KernelIdeal.Frame
import proofs.«417018_j8349416424231_3_alg».proof.Proof.BodyI
import proofs.«417018_j8349416424231_3_alg».proof.Proof.PayIdeal
import proofs.«417018_j8349416424231_3_alg».proof.Proof.KernelHost
import proofs.«417018_j8349416424231_3_alg».proof.Proof.SpecLaws
import Idealize.ShloMosaic.Lib.Pipeline.Frame
import Idealize.ShloMosaic.Lib.Pipeline.Value

set_option maxRecDepth 16384

noncomputable section

namespace Cert.Margin.KRun

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

variable (m : (ℓ : Loc nD τ sig) → Buf (Elt Ideal) ℓ) (ρ : Dev nD → PrngReg)

/-! ## The windows' cuts, decided over the grid -/

/-- The weight window is cut on its rows only, the result window on its columns only, and by the same amount. -/
theorem xsize1_1 : ∀ t : Fin cfg0.N, win0_1.xsize (grid0.coords t) 1 = 512 :=
  (by decide +kernel : ∀ t : Fin grid0.N, win0_1.xsize (grid0.coords t) 1 = 512)
theorem xsize4_0 : ∀ t : Fin cfg0.N, win0_4.xsize (grid0.coords t) 0 = 1024 :=
  (by decide +kernel : ∀ t : Fin grid0.N, win0_4.xsize (grid0.coords t) 0 = 1024)
theorem xsize4_1 : ∀ t : Fin cfg0.N, win0_4.xsize (grid0.coords t) 1 = win0_1.xsize (grid0.coords t) 0 :=
  (by decide +kernel : ∀ t : Fin grid0.N, win0_4.xsize (grid0.coords t) 1 = win0_1.xsize (grid0.coords t) 0)

/-! ## The proof data -/

/-- The staged weight block at point t with the rows past the array's end set to zero. -/
def wblk (c : Dev nD) (t : Fin cfg0.N) : S1024x512.Idx → EReal :=
  win0_1.fill (grid0.coords t) (fun _ => (0 : EReal)) (iblk (F := Ideal) m c 1 t)

/-- What the body stores at point t, computed from that block and the three resident blocks. -/
def oblk (c : Dev nD) (t : Fin cfg0.N) : S1024x1024.Idx → EReal :=
  k0_pay1 (F := Ideal) (grid0.coords t) (wblk m c t) (iblk (F := Ideal) m c 0 t) (iblk (F := Ideal) m c 2 t) (iblk (F := Ideal) m c 3 t)

/-- The proof data on device c: the arrays as the region finds them; after the body the three resident buffers and the
    weight buffer hold their blocks and the result's buffer the stored block; the class invariant; nothing owed. -/
def dats (_ : Fin 1) (c : Dev nD) : Dat τ (Elt Ideal) Unit ℕ (UR sig nD τ) ℕ cfg0 c where
  A w := V (F := Ideal) m c (Pipeline.arrRef spec0 w)
  after w t := match w with
    | ⟨0, _⟩ => iblk (F := Ideal) m c 0 t
    | ⟨1, _⟩ => wblk m c t
    | ⟨2, _⟩ => iblk (F := Ideal) m c 2 t
    | ⟨3, _⟩ => iblk (F := Ideal) m c 3 t
    | ⟨4, _⟩ => oblk m c t
  Φ _ := Pipeline.ΦA spec0 c
  q _ := fullShare
  owed _ := 0

theorem A_eq (c : Dev nD) (w : Fin cfg0.W) : (dats m 0 c).A w = V (F := Ideal) m c (Pipeline.arrRef spec0 w) := by
  dsimp only [dats]

theorem after0_0 (c : Dev nD) (t : Fin cfg0.N) : (dats m 0 c).after 0 t = iblk (F := Ideal) m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = iblk (F := Ideal) m c 2 t := by dsimp only [dats]
theorem after0_3 (c : Dev nD) (t : Fin cfg0.N) : (dats m 0 c).after 3 t = iblk (F := Ideal) m c 3 t := by dsimp only [dats]
theorem after0_4 (c : Dev nD) (t : Fin cfg0.N) : (dats m 0 c).after 4 t = oblk m c t := by dsimp only [dats]

/-- The three resident windows hold their blocks at every point. -/
theorem before0_0 (c : Dev nD) (t : Fin cfg0.N) (d) : (dats m 0 c).before 0 t d = iblk (F := Ideal) m c 0 t :=
  before0_0_of m (dats m 0 c) (A_eq m c 0) (after0_0 m c) t d
theorem before0_2 (c : Dev nD) (t : Fin cfg0.N) (d) : (dats m 0 c).before 2 t d = iblk (F := Ideal) m c 2 t :=
  before0_2_of m (dats m 0 c) (A_eq m c 2) (after0_2 m c) t d
theorem before0_3 (c : Dev nD) (t : Fin cfg0.N) (d) : (dats m 0 c).before 3 t d = iblk (F := Ideal) m c 3 t :=
  before0_3_of m (dats m 0 c) (A_eq m c 3) (after0_3 m c) t d

/-- The weight window is fetched at every point: its buffer holds the block on the rows inside the array and whatever
    it held (d) on the others. -/
theorem before0_1 (c : Dev nD) (t : Fin cfg0.N) (d) :
    (dats m 0 c).before 1 t d = win0_1.fill (grid0.coords t) d (iblk (F := Ideal) m c 1 t) := by
  rw [(dats m 0 c).before_fetched 1 t (fetch0_1 t)]
  unfold Dat.fetched Dat.blockOf iblk
  rw [A_eq]

/-- The result window is written back at every point: its buffer is fresh at each. -/
theorem before0_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

/-! ## The columns written back do not depend on the unnamed rows -/

/-- The part of the stored block inside the array is the same whatever the staged weight block holds on the rows past
    the array's end. -/
theorem cut_pay_indep (c : Dev nD) (t : Fin cfg0.N) (d d' : S1024x512.Idx → EReal)
    (xb : FVec Ideal S1024x512 .bf16) (tb : IVec S1024x1 32) (cb : FVec Ideal S1024x1 .f32) :
    win0_4.cut (grid0.coords t) (k0_pay1 (F := Ideal) (grid0.coords t) (win0_1.fill (grid0.coords t) d (iblk (F := Ideal) m c 1 t)) xb tb cb)
      = win0_4.cut (grid0.coords t) (k0_pay1 (F := Ideal) (grid0.coords t) (win0_1.fill (grid0.coords t) d' (iblk (F := Ideal) m c 1 t)) xb tb cb) := by
  funext j
  -- the entry of the cut at j is the stored block's entry at (n, jj), jj below the number of staged rows inside the array
  have hj0 : (j 0).val < 1024 := Nat.lt_of_lt_of_eq (j 0).isLt (xsize4_0 t)
  have hj1 : (j 1).val < win0_1.xsize (grid0.coords t) 0 := Nat.lt_of_lt_of_eq (j 1).isLt (xsize4_1 t)
  have hj1' : (j 1).val < 1024 := Nat.lt_of_lt_of_le hj1 (win0_1.xsize_le (grid0.coords t) 0)
  have e : win0_4.xinj (grid0.coords t) j = ix2 (⟨(j 0).val, hj0⟩ : Fin 1024) (⟨(j 1).val, hj1'⟩ : Fin 1024) := by
    funext a; match a with
    | ⟨0, _⟩ => rfl
    | ⟨1, _⟩ => rfl
  show k0_pay1 (F := Ideal) _ _ xb tb cb (win0_4.xinj (grid0.coords t) j) = k0_pay1 (F := Ideal) _ _ xb tb cb (win0_4.xinj (grid0.coords t) j)
  rw [e, Cert.Margin.Pay.pay_apply, Cert.Margin.Pay.pay_apply]
  -- row jj of the staged block lies inside the array: both fillings hold the array's row there
  have hrow : ∀ k : Fin 512, win0_1.fill (grid0.coords t) d (iblk (F := Ideal) m c 1 t) (ix2 (⟨(j 1).val, hj1'⟩ : Fin 1024) k)
      = win0_1.fill (grid0.coords t) d' (iblk (F := Ideal) m c 1 t) (ix2 (⟨(j 1).val, hj1'⟩ : Fin 1024) k) := fun k => by
    have hm : win0_1.moved (grid0.coords t) (ix2 (⟨(j 1).val, hj1'⟩ : Fin 1024) k) = true :=
      (win0_1.moved_iff _ _).mpr fun a => by
        match a with
        | ⟨0, _⟩ => exact hj1
        | ⟨1, _⟩ => show k.val < win0_1.xsize (grid0.coords t) 1; rw [xsize1_1 t]; exact k.isLt
    unfold Window.fill; rw [dif_pos hm, dif_pos hm]
  simp only [hrow]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the weight window's and the result window's buffers stated on their parts inside the arrays. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t)))))

/-- The body at any point: the buffers hold what the before lemmas say, so the body's triple applies; the weight buffer is
    handed back as found, the result's holding the stored block, which on its columns inside the array is the named one. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel (F := Ideal) c Set.univ (grid0.coords t) _ _ _ _ _ _ _ _ _ _ (iblk (F := Ideal) m c 0 t)
    (win0_1.fill (grid0.coords t) d1 (iblk (F := Ideal) m c 1 t)) (iblk (F := Ideal) m c 2 t) (iblk (F := Ideal) m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    rw [show (cfg0.win 1).cut (cfg0.grid.coords t) (wblk m c t) = iblk (F := Ideal) m c 1 t from win0_1.cut_fill _ _ _]
    iexact H1
  isplitl [H2]; · iexact H2
  isplitl [H3]; · iexact H3
  · iexists out4 (grid0.coords t) (iblk (F := Ideal) m c 0 t) (win0_1.fill (grid0.coords t) d1 (iblk (F := Ideal) m c 1 t))
      (iblk (F := Ideal) m c 2 t) (iblk (F := Ideal) m c 3 t)
    rw [win0_4.fill_congr_cut (grid0.coords t) (by rw [out4_eq]; exact cut_pay_indep m c t d1 (fun _ => 0) _ _ _)]
    iexact H4

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates, and every final state has each array of the pipeline at what the
    library computes from the proof data and every other buffer as the region found it. -/
theorem run_main : θ_run defs (onTc (τ := τ) (main (F := Ideal))) (s₀ m ρ) (Pipeline.FramePost cfgs (dats m) 0 (V (F := Ideal) m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V (F := Ideal) m) (hmain := hmain m Variants.none) (hA := A_eq m) (hΦ := fun _ _ => rfl)

/-! ## The result array -/

/-- The windows' block indices and the last block's cut, decided over the grid: the resident windows sit at block 0,
    the weight window at row block t, the result window at column block t; every cut block ends at the array's end. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx4 : ∀ t : Fin cfg0.N, win0_4.index t 0 = 0 ∧ win0_4.index t 1 = t.val :=
  (by decide +kernel : ∀ t : Fin grid0.N, win0_4.index t 0 = 0 ∧ win0_4.index t 1 = t.val)
theorem crd : ∀ t : Fin cfg0.N, (grid0.coords t 0).val = t.val :=
  (by decide +kernel : ∀ t : Fin grid0.N, (grid0.coords t 0).val = t.val)
theorem xs1 : ∀ t : Fin cfg0.N, t.val * 1024 + win0_1.xsize (grid0.coords t) 0 ≤ 100000
      ∧ (win0_1.xsize (grid0.coords t) 0 = 1024 ∨ t.val * 1024 + win0_1.xsize (grid0.coords t) 0 = 100000) :=
  (by decide +kernel : ∀ t : Fin grid0.N, t.val * 1024 + win0_1.xsize (grid0.coords t) 0 ≤ 100000
      ∧ (win0_1.xsize (grid0.coords t) 0 = 1024 ∨ t.val * 1024 + win0_1.xsize (grid0.coords t) 0 = 100000))

variable (c : Dev nD)

/-- The resident x block is x. -/
theorem iblk0_apply (t : Fin cfg0.N) (n : Fin 1024) (k : Fin 512) :
    iblk (F := Ideal) m c 0 t (ix2 n k) = Cert.Margin.KHost.xA m c (ix2 n k) := by
  unfold iblk
  show V (F := Ideal) m c main_v43 (((cfg0.win 0).blk t).view.emb (ix2 n k)) = _
  refine (congrArg (V (F := Ideal) m c main_v43) (?_ : ((cfg0.win 0).blk t).view.emb (ix2 n k) = ix2 n k)).trans
    (congrFun (Cert.Margin.KHost.V_x m c) (ix2 n k))
  funext a; apply Fin.ext
  match a with
  | ⟨0, _⟩ => show win0_0.index t 0 * 1024 + 1 * n.val = n.val; rw [(idx0 t).1]; omega
  | ⟨1, _⟩ => show win0_0.index t 1 * 512 + 1 * k.val = k.val; rw [(idx0 t).2]; omega

/-- The resident label column's entry n is label n. -/
theorem iblk2_apply (t : Fin cfg0.N) (n : Fin 1024) :
    iblk (F := Ideal) m c 2 t (ix2 n (0 : Fin 1)) = Cert.Margin.KHost.tA m c (ix1 n) := by
  unfold iblk
  show V (F := Ideal) m c main_v44 (((cfg0.win 2).blk t).view.emb (ix2 n (0 : Fin 1))) = _
  refine (congrArg (V (F := Ideal) m c main_v44) (?_ : ((cfg0.win 2).blk t).view.emb (ix2 n (0 : Fin 1)) = ix2 n (0 : Fin 1))).trans
    (Cert.Margin.KHost.V_tg m c n)
  funext a; apply Fin.ext
  match a with
  | ⟨0, _⟩ => show win0_2.index t 0 * 1024 + 1 * n.val = n.val; rw [(idx2 t).1]; omega
  | ⟨1, _⟩ => show win0_2.index t 1 * 1 + 1 * 0 = 0; rw [(idx2 t).2]

/-- The resident blend column's entry n, when label n is the class cT, is the blend of that class's logit. -/
theorem iblk3_apply (t : Fin cfg0.N) (n : Fin 1024) (cT : Fin 100000)
    (h : Cert.Margin.KHost.tA m c (ix1 n) = BitVec.ofNat 32 cT.val) :
    iblk (F := Ideal) m c 3 t (ix2 n (0 : Fin 1))
      = Cert.Margin.comb (Cert.Margin.logit (Cert.Margin.KHost.xA m c) (Cert.Margin.KHost.wA m c) n cT) (Cert.Margin.xnorm (Cert.Margin.KHost.xA m c) n) := by
  unfold iblk
  show V (F := Ideal) m c main_v45 (((cfg0.win 3).blk t).view.emb (ix2 n (0 : Fin 1))) = _
  refine (congrArg (V (F := Ideal) m c main_v45) (?_ : ((cfg0.win 3).blk t).view.emb (ix2 n (0 : Fin 1)) = ix2 n (0 : Fin 1))).trans
    (Cert.Margin.KHost.V_comb m c n cT h)
  funext a; apply Fin.ext
  match a with
  | ⟨0, _⟩ => show win0_3.index t 0 * 1024 + 1 * n.val = n.val; rw [(idx3 t).1]; omega
  | ⟨1, _⟩ => show win0_3.index t 1 * 1 + 1 * 0 = 0; rw [(idx3 t).2]

/-- Row jj of the staged weight block, when it lies inside the array, is row 1024 t + jj of w. -/
theorem wblk_apply (t : Fin cfg0.N) (jj : Fin 1024) (k : Fin 512) (hjj : jj.val < win0_1.xsize (grid0.coords t) 0)
    (cc : Fin 100000) (hcc : cc.val = t.val * 1024 + jj.val) :
    wblk m c t (ix2 jj k) = Cert.Margin.KHost.wA m c (ix2 cc k) := by
  have hm : win0_1.moved (grid0.coords t) (ix2 jj k) = true :=
    (win0_1.moved_iff _ _).mpr fun a => by
      match a with
      | ⟨0, _⟩ => exact hjj
      | ⟨1, _⟩ => show k.val < win0_1.xsize (grid0.coords t) 1; rw [xsize1_1 t]; exact k.isLt
  unfold wblk Window.fill; rw [dif_pos hm]
  unfold iblk
  show V (F := Ideal) m c main_arg2 (((cfg0.win 1).blk t).view.emb _) = _
  rw [V_main_arg2]
  show m ((c : Thread nD τ).loc main_arg2) _ = m ((c : Thread nD τ).loc main_arg2) (ix2 cc k)
  congr 1
  funext a; apply Fin.ext
  match a with
  | ⟨0, _⟩ => show win0_1.index t 0 * 1024 + 1 * jj.val = cc.val; rw [(idx1 t).1]; omega
  | ⟨1, _⟩ => show win0_1.index t 1 * 512 + 1 * k.val = k.val; rw [(idx1 t).2]; omega

/-- The kernel's column test: 1024 times the grid coordinate plus the column inside the block, as a word, is the
    word of the global column. -/
theorem col_word (t : Fin cfg0.N) (j : Nat) :
    BitVec.ofNat 32 (grid0.coords t 0).val * 1024#32 + BitVec.ofNat 32 j = BitVec.ofNat 32 (t.val * 1024 + j) := by
  rw [crd t, BitVec.ofNat_add, BitVec.ofNat_mul]

/-- What point t writes back is G's block there: on a column inside the array the stored value is the blend at the
    label's cell and, elsewhere, the product of x's row with the weight row scaled by its reciprocal norm — the logit. -/
theorem flushed_eq (hH : Cert.Margin.Hyp (Cert.Margin.KHost.xA m c) (Cert.Margin.KHost.tA m c) (Cert.Margin.KHost.wA m c)) (t : Fin cfg0.N) :
    (dats m 0 c).flushed 4 t = ((cfg0.win 4).blk t).view.read (Elt Ideal)
      (Cert.Margin.G (Cert.Margin.KHost.xA m c) (Cert.Margin.KHost.tA m c) (Cert.Margin.KHost.wA m c)) := by
  funext j
  have hj0 : (j 0).val < 1024 := Nat.lt_of_lt_of_eq (j 0).isLt (xsize4_0 t)
  have hj1 : (j 1).val < win0_1.xsize (grid0.coords t) 0 := Nat.lt_of_lt_of_eq (j 1).isLt (xsize4_1 t)
  have hj1' : (j 1).val < 1024 := Nat.lt_of_lt_of_le hj1 (win0_1.xsize_le (grid0.coords t) 0)
  have hcc : t.val * 1024 + (j 1).val < 100000 := by have := (xs1 t).1; omega
  have e : win0_4.xinj (grid0.coords t) j = ix2 (⟨(j 0).val, hj0⟩ : Fin 1024) (⟨(j 1).val, hj1'⟩ : Fin 1024) := by
    funext a; match a with
    | ⟨0, _⟩ => rfl
    | ⟨1, _⟩ => rfl
  have e2 : ((cfg0.win 4).blk t).view.emb j = ix2 (⟨(j 0).val, hj0⟩ : Fin 1024) (⟨t.val * 1024 + (j 1).val, hcc⟩ : Fin 100000) := by
    funext a; apply Fin.ext
    match a with
    | ⟨0, _⟩ => show win0_4.index t 0 * 1024 + 1 * (j 0).val = (j 0).val; rw [(idx4 t).1]; omega
    | ⟨1, _⟩ => show win0_4.index t 1 * 1024 + 1 * (j 1).val = t.val * 1024 + (j 1).val; rw [(idx4 t).2]; omega
  show win0_4.cut (grid0.coords t) ((dats m 0 c).after 4 t) j = Cert.Margin.G _ _ _ (((cfg0.win 4).blk t).view.emb j)
  rw [after0_4, e2, Cert.Margin.G_ix2]
  show oblk m c t (win0_4.xinj (grid0.coords t) j) = _
  rw [e]
  unfold oblk
  rw [Cert.Margin.Pay.pay_apply, col_word, iblk2_apply]
  unfold Cert.Margin.Gat
  by_cases h : Cert.Margin.KHost.tA m c (ix1 (⟨(j 0).val, hj0⟩ : Fin 1024)) = BitVec.ofNat 32 (t.val * 1024 + (j 1).val)
  · rw [if_pos h.symm, if_pos h]
    exact iblk3_apply m c t _ ⟨t.val * 1024 + (j 1).val, hcc⟩ h
  · rw [if_neg (fun h' => h h'.symm), if_neg h]
    simp only [iblk0_apply, wblk_apply m c t ⟨(j 1).val, hj1'⟩ _ hj1 ⟨t.val * 1024 + (j 1).val, hcc⟩ rfl]
    exact Cert.Margin.logit_rsqrt hH _ _

/-- Every cell of the result lies in the block of the point that holds its column. -/
theorem cover (i : S1024x100000.Idx) : ∃ t : Fin cfg0.N, (cfg0.win 4).flush t = true ∧ i ∈ ((cfg0.win 4).blk t).view.set := by
  have hi1 : (i 1).val < 100000 := (i 1).isLt
  have hi0 : (i 0).val < 1024 := (i 0).isLt
  have ht : (i 1).val / 1024 < cfg0.N := by rw [show cfg0.N = 98 from N_0]; omega
  let t0 : Fin cfg0.N := ⟨(i 1).val / 1024, ht⟩
  refine ⟨t0, flush0_4 t0, ?_⟩
  show i ∈ ((View.whole main_v46).slice (win0_4.rect t0)).set
  rw [View.set_slice_whole, Rect.mem_set_unit]
  have hx := xs1 t0
  have ht0 : t0.val = (i 1).val / 1024 := rfl
  intro a
  match a with
  | ⟨0, _⟩ =>
    show win0_4.index t0 0 * 1024 ≤ (i 0).val ∧ (i 0).val < win0_4.index t0 0 * 1024 + win0_4.xsize (grid0.coords t0) 0
    rw [(idx4 t0).1, xsize4_0 t0]; omega
  | ⟨1, _⟩ =>
    show win0_4.index t0 1 * 1024 ≤ (i 1).val ∧ (i 1).val < win0_4.index t0 1 * 1024 + win0_4.xsize (grid0.coords t0) 1
    rw [(idx4 t0).2, xsize4_1 t0]
    rcases hx.2 with h | h <;> omega

/-- The result array after the run is G of the arguments. -/
theorem final (hH : Cert.Margin.Hyp (Cert.Margin.KHost.xA m c) (Cert.Margin.KHost.tA m c) (Cert.Margin.KHost.wA m c)) :
    (dats m 0 c).arrAt 4 cfg0.N = Cert.Margin.G (Cert.Margin.KHost.xA m c) (Cert.Margin.KHost.tA m c) (Cert.Margin.KHost.wA m c) :=
  (dats m 0 c).arrAt_eq_of_cover 4 _ (fun t _ => flushed_eq m c hH t) (cover)

end Cert.Margin.KRun

end
-- ==== Proof.LibFold.lean ====
/-
  A left fold of "set one cell" steps over a list, read at a cell: if no step of the list lands on the cell it keeps
  its starting value, and if exactly one step of a duplicate-free list lands on it, it holds that step's value.
-/
import Mathlib.Data.List.Basic
import Mathlib.Data.List.Nodup

namespace Cert.LibFold

variable {ι κ β : Type} [DecidableEq κ]

/-- One step: where the step lands (pos n = some i) cell i takes f (its value) (the step's value), every other cell
    keeps its value; a step that lands nowhere changes nothing. -/
def step (pos : ι → Option κ) (f : β → β → β) (upd : ι → β) (r : κ → β) (n : ι) : κ → β :=
  match pos n with
  | some i => fun k => if k = i then f (r i) (upd n) else r k
  | none => r

/-- A step that does not land on k leaves cell k as it was. -/
private theorem step_miss (pos : ι → Option κ) (f : β → β → β) (upd : ι → β) (r : κ → β) (n : ι) (k : κ)
    (h : pos n ≠ some k) : step pos f upd r n k = r k := by
  unfold step
  cases hp : pos n with
  | none => rfl
  | some i =>
    have hki : k ≠ i := fun e => h (by rw [hp, e])
    simp [hki]

/-- A step that lands on k sets cell k to f (its value) (the step's value). -/
private theorem step_hit (pos : ι → Option κ) (f : β → β → β) (upd : ι → β) (r : κ → β) (n : ι) (k : κ)
    (h : pos n = some k) : step pos f upd r n k = f (r k) (upd n) := by
  unfold step
  rw [h]
  simp

/-- No step of the list lands on k: k keeps its starting value. -/
theorem foldl_step_miss (pos : ι → Option κ) (f : β → β → β) (upd : ι → β) (l : List ι) (x : κ → β) (k : κ)
    (h : ∀ n ∈ l, pos n ≠ some k) : (l.foldl (step pos f upd) x) k = x k := by
  induction l generalizing x with
  | nil => rfl
  | cons a l ih =>
    rw [List.foldl_cons, ih _ (fun n hn => h n (List.mem_cons_of_mem _ hn))]
    exact step_miss pos f upd x a k (h a (List.mem_cons_self ..))

/-- Exactly one step n₀ of a duplicate-free list lands on k: k ends at f (its starting value) (that step's value). -/
theorem foldl_step_hit (pos : ι → Option κ) (f : β → β → β) (upd : ι → β) (l : List ι) (hnd : l.Nodup) (x : κ → β) (k : κ)
    (n₀ : ι) (hn : n₀ ∈ l) (hp : pos n₀ = some k) (huniq : ∀ n ∈ l, pos n = some k → n = n₀) :
    (l.foldl (step pos f upd) x) k = f (x k) (upd n₀) := by
  induction l generalizing x with
  | nil => cases hn
  | cons a l ih =>
    rw [List.foldl_cons]
    rw [List.nodup_cons] at hnd
    rcases List.mem_cons.mp hn with hEq | hIn
    · -- the head is the landing step; no later step lands on k
      subst hEq
      rw [foldl_step_miss pos f upd l _ k ?_]
      · exact step_hit pos f upd x n₀ k hp
      · intro n hnl hpn
        have : n = n₀ := huniq n (List.mem_cons_of_mem _ hnl) hpn
        exact hnd.1 (this ▸ hnl)
    · -- the head is another step, so it does not land on k
      have hane : a ≠ n₀ := fun e => hnd.1 (e ▸ hIn)
      have hmiss : pos a ≠ some k := fun hpa => hane (huniq a (List.mem_cons_self ..) hpa)
      rw [ih hnd.2 _ hIn (fun n hnl => huniq n (List.mem_cons_of_mem _ hnl))]
      rw [step_miss pos f upd x a k hmiss]

end Cert.LibFold
-- ==== Proof.RefIndex.lean ====
/-
  The reference's two data-dependent stages read at an index.
  The point gather of a [1024, 100000] array by [1024, 2] index pairs reads, for sample n, the entry at the pair's
  row and column (here both in range, so nothing is clamped). The scatter of one value per sample into the same
  array, the pair of sample n being (n, col n) with col n in range, overwrites exactly the cells (n, col n): rows are
  distinct, so each cell is met by at most one update.
-/
import proofs.«417018_j8349416424231_3_alg».proof.ReferenceIdeal
import proofs.«417018_j8349416424231_3_alg».proof.Proof.LibFold
import Idealize.ShloMosaic.Lib.ValueIdx

noncomputable section

open Idealize.ShloMosaic Idealize.ShloMosaic.ValueIdx

namespace Cert.Margin.RefIdx

open Cert.ReferenceIdeal

variable [Cert.ReferenceIdeal.Facts] {α : Type}

/-- The gather at sample n, its index pair (r, cc) in range: the operand at (r, cc). -/
theorem gather_apply (x : S1024x100000.Idx → α) (idx : IVec S1024x2 32) (n r : Fin 1024) (cc : Fin 100000)
    (hr : (idx (ix2 n (0 : Fin 2))).toInt = (r.val : ℤ)) (hc : (idx (ix2 n (1 : Fin 2))).toInt = (cc.val : ℤ)) :
    Host.gather gather_S1024x100000_S1024x2_S1024_n_01_n_n_01_1_11 x idx (ix1 n) = x (ix2 r cc) := by
  unfold Host.gather
  congr 1
  funext a
  refine Fin.ext ?_
  revert a
  refine Fin.forall_fin_two.2 ⟨?_, ?_⟩
  · show gather_S1024x100000_S1024x2_S1024_n_01_n_n_01_1_11.start (ix1 n) idx 0
        + gather_S1024x100000_S1024x2_S1024_n_01_n_n_01_1_11.batchCoord (ix1 n) 0
        + gather_S1024x100000_S1024x2_S1024_n_01_n_n_01_1_11.offCoord (ix1 n) 0 = r.val
    rw [GatherDims.batchCoord_eq_zero _ _ _ List.not_mem_nil,
      GatherDims.offCoord_eq_zero _ _ _ (fun h => ((GatherDims.mem_sKept _ _).mp h).1 (List.mem_cons_self ..))]
    simp only [Nat.add_zero]
    unfold GatherDims.start
    rw [dif_pos (show (0 : Fin 2) ∈ gather_S1024x100000_S1024x2_S1024_n_01_n_n_01_1_11.startIndexMap from List.mem_cons_self ..)]
    have hsi : gather_S1024x100000_S1024x2_S1024_n_01_n_n_01_1_11.siIdx (ix1 n)
        ⟨List.idxOf (0 : Fin 2) gather_S1024x100000_S1024x2_S1024_n_01_n_n_01_1_11.startIndexMap,
          List.idxOf_lt_length_iff.2 (List.mem_cons_self ..)⟩ = ix2 n (0 : Fin 2) := by
      funext b; refine Fin.ext ?_
      match b with
      | ⟨0, _⟩ => rfl
      | ⟨1, _⟩ => rfl
    rw [hsi, hr]
    show min (Int.toNat (r.val : ℤ)) (1024 - 1) = r.val
    rw [Int.toNat_natCast]
    have := r.isLt
    omega
  · show gather_S1024x100000_S1024x2_S1024_n_01_n_n_01_1_11.start (ix1 n) idx 1
        + gather_S1024x100000_S1024x2_S1024_n_01_n_n_01_1_11.batchCoord (ix1 n) 1
        + gather_S1024x100000_S1024x2_S1024_n_01_n_n_01_1_11.offCoord (ix1 n) 1 = cc.val
    rw [GatherDims.batchCoord_eq_zero _ _ _ List.not_mem_nil,
      GatherDims.offCoord_eq_zero _ _ _ (fun h => ((GatherDims.mem_sKept _ _).mp h).1
        (List.mem_cons_of_mem _ (List.mem_cons_self ..)))]
    simp only [Nat.add_zero]
    unfold GatherDims.start
    rw [dif_pos (show (1 : Fin 2) ∈ gather_S1024x100000_S1024x2_S1024_n_01_n_n_01_1_11.startIndexMap from
      List.mem_cons_of_mem _ (List.mem_cons_self ..))]
    have hsi : gather_S1024x100000_S1024x2_S1024_n_01_n_n_01_1_11.siIdx (ix1 n)
        ⟨List.idxOf (1 : Fin 2) gather_S1024x100000_S1024x2_S1024_n_01_n_n_01_1_11.startIndexMap,
          List.idxOf_lt_length_iff.2 (List.mem_cons_of_mem _ (List.mem_cons_self ..))⟩ = ix2 n (1 : Fin 2) := by
      funext b; refine Fin.ext ?_
      match b with
      | ⟨0, _⟩ => rfl
      | ⟨1, _⟩ => rfl
    rw [hsi, hc]
    show min (Int.toNat (cc.val : ℤ)) (100000 - 1) = cc.val
    rw [Int.toNat_natCast]
    have := cc.isLt
    omega

/-- The scatter is the left fold of "set one cell" steps over the update indices in row-major order. -/
private theorem scatter_eq_foldl {s si u : Shape} {w : Nat} {β : Type} (d : ScatterDims s si u) (f : β → β → β)
    (x : s.Idx → β) (idx : IVec si w) (upd : u.Idx → β) :
    Host.scatter d f x idx upd = (List.finRange u.numel).foldl
      (Cert.LibFold.step (fun m => d.resultIdx? (u.rowMajor.symm m) idx) f (fun m => upd (u.rowMajor.symm m))) x := by
  unfold Host.scatter
  congr 1
  funext r m
  unfold Cert.LibFold.step
  beta_reduce
  cases d.resultIdx? (u.rowMajor.symm m) idx with
  | none => rfl
  | some i => rfl

/-- Where the update of sample n' lands: its pair (n', col n'), in range on both axes, so the update is kept. -/
private theorem resultIdx_eq (idx : IVec S1024x2 32) (col : Fin 1024 → Fin 100000)
    (hr : ∀ n : Fin 1024, (idx (ix2 n (0 : Fin 2))).toInt = (n.val : ℤ))
    (hc : ∀ n : Fin 1024, (idx (ix2 n (1 : Fin 2))).toInt = ((col n).val : ℤ)) (n' : Fin 1024) :
    scatter_S1024x100000_S1024x2_S1024_n_01_01_1.resultIdx? (ix1 n') idx = some (ix2 n' (col n')) := by
  -- the start on each operand axis is the pair's component for it
  have hs0 : scatter_S1024x100000_S1024x2_S1024_n_01_01_1.start (ix1 n') idx (0 : Fin 2) = (n'.val : ℤ) := by
    unfold ScatterDims.start
    rw [dif_pos (show (0 : Fin 2) ∈ scatter_S1024x100000_S1024x2_S1024_n_01_01_1.scatterDimsToOperandDims from List.mem_cons_self ..)]
    have hsi : scatter_S1024x100000_S1024x2_S1024_n_01_01_1.siIdx (ix1 n')
        ⟨List.idxOf (0 : Fin 2) scatter_S1024x100000_S1024x2_S1024_n_01_01_1.scatterDimsToOperandDims,
          List.idxOf_lt_length_iff.2 (List.mem_cons_self ..)⟩ = ix2 n' (0 : Fin 2) := by
      funext b; refine Fin.ext ?_
      match b with
      | ⟨0, _⟩ => rfl
      | ⟨1, _⟩ => rfl
    rw [hsi]; exact hr n'
  have hs1 : scatter_S1024x100000_S1024x2_S1024_n_01_01_1.start (ix1 n') idx (1 : Fin 2) = ((col n').val : ℤ) := by
    unfold ScatterDims.start
    rw [dif_pos (show (1 : Fin 2) ∈ scatter_S1024x100000_S1024x2_S1024_n_01_01_1.scatterDimsToOperandDims from
      List.mem_cons_of_mem _ (List.mem_cons_self ..))]
    have hsi : scatter_S1024x100000_S1024x2_S1024_n_01_01_1.siIdx (ix1 n')
        ⟨List.idxOf (1 : Fin 2) scatter_S1024x100000_S1024x2_S1024_n_01_01_1.scatterDimsToOperandDims,
          List.idxOf_lt_length_iff.2 (List.mem_cons_of_mem _ (List.mem_cons_self ..))⟩ = ix2 n' (1 : Fin 2) := by
      funext b; refine Fin.ext ?_
      match b with
      | ⟨0, _⟩ => rfl
      | ⟨1, _⟩ => rfl
    rw [hsi]; exact hc n'
  -- both operand axes are inserted: the window coordinate is 0 on each
  have hw0 : scatter_S1024x100000_S1024x2_S1024_n_01_01_1.window (ix1 n') (0 : Fin 2) = 0 := by
    unfold ScatterDims.window
    rw [dif_neg (show (0 : Fin 2) ∉ scatter_S1024x100000_S1024x2_S1024_n_01_01_1.sKept by
      show (0 : Fin 2) ∉ S1024x100000.kept [0, 1]; decide)]
  have hw1 : scatter_S1024x100000_S1024x2_S1024_n_01_01_1.window (ix1 n') (1 : Fin 2) = 0 := by
    unfold ScatterDims.window
    rw [dif_neg (show (1 : Fin 2) ∉ scatter_S1024x100000_S1024x2_S1024_n_01_01_1.sKept by
      show (1 : Fin 2) ∉ S1024x100000.kept [0, 1]; decide)]
  have h : ∀ a, 0 ≤ scatter_S1024x100000_S1024x2_S1024_n_01_01_1.start (ix1 n') idx a + scatter_S1024x100000_S1024x2_S1024_n_01_01_1.window (ix1 n') a ∧
      scatter_S1024x100000_S1024x2_S1024_n_01_01_1.start (ix1 n') idx a + scatter_S1024x100000_S1024x2_S1024_n_01_01_1.window (ix1 n') a < S1024x100000.size a := by
    refine Fin.forall_fin_two.2 ⟨?_, ?_⟩
    · rw [hs0, hw0]
      show (0 : ℤ) ≤ (n'.val : ℤ) + ((0 : ℕ) : ℤ) ∧ (n'.val : ℤ) + ((0 : ℕ) : ℤ) < ((1024 : ℕ) : ℤ)
      have := n'.isLt
      omega
    · rw [hs1, hw1]
      show (0 : ℤ) ≤ ((col n').val : ℤ) + ((0 : ℕ) : ℤ) ∧ ((col n').val : ℤ) + ((0 : ℕ) : ℤ) < ((100000 : ℕ) : ℤ)
      have := (col n').isLt
      omega
  unfold ScatterDims.resultIdx?
  rw [dif_pos h]
  congr 1
  funext a
  refine Fin.ext ?_
  revert a
  refine Fin.forall_fin_two.2 ⟨?_, ?_⟩
  · show (scatter_S1024x100000_S1024x2_S1024_n_01_01_1.start (ix1 n') idx 0 + scatter_S1024x100000_S1024x2_S1024_n_01_01_1.window (ix1 n') 0).toNat = n'.val
    rw [hs0, hw0]
    omega
  · show (scatter_S1024x100000_S1024x2_S1024_n_01_01_1.start (ix1 n') idx 1 + scatter_S1024x100000_S1024x2_S1024_n_01_01_1.window (ix1 n') 1).toNat = (col n').val
    rw [hs1, hw1]
    omega

/-- The scatter read at (n, c): the update of sample n where c is its column, the operand elsewhere. -/
theorem scatter_apply (x : S1024x100000.Idx → α) (idx : IVec S1024x2 32) (upd : S1024.Idx → α) (col : Fin 1024 → Fin 100000)
    (hr : ∀ n : Fin 1024, (idx (ix2 n (0 : Fin 2))).toInt = (n.val : ℤ))
    (hc : ∀ n : Fin 1024, (idx (ix2 n (1 : Fin 2))).toInt = ((col n).val : ℤ)) (n : Fin 1024) (c : Fin 100000) :
    Host.scatter scatter_S1024x100000_S1024x2_S1024_n_01_01_1 (fun _ b => b) x idx upd (ix2 n c)
      = if col n = c then upd (ix1 n) else x (ix2 n c) := by
  rw [scatter_eq_foldl]
  -- an update landing on (n, c) is sample n's, and c is its column
  have hland : ∀ m : Fin S1024.numel, scatter_S1024x100000_S1024x2_S1024_n_01_01_1.resultIdx? (S1024.rowMajor.symm m) idx = some (ix2 n c) →
      m = S1024.rowMajor (ix1 n) ∧ col n = c := by
    intro m hm
    obtain ⟨n', hn'⟩ : ∃ n' : Fin 1024, S1024.rowMajor.symm m = ix1 n' := ⟨S1024.rowMajor.symm m 0, eq_ix1 _⟩
    rw [hn', resultIdx_eq idx col hr hc n'] at hm
    have he : ix2 n' (col n') = ix2 n c := Option.some.inj hm
    have h0 : n' = n := congrFun he 0
    have h1 : col n' = c := congrFun he 1
    refine ⟨?_, by rw [← h0]; exact h1⟩
    rw [← h0, ← hn', Equiv.apply_symm_apply]
  by_cases hcn : col n = c
  · rw [if_pos hcn]
    rw [Cert.LibFold.foldl_step_hit _ _ _ _ (List.nodup_finRange _) x (ix2 n c) (S1024.rowMajor (ix1 n))
      (List.mem_finRange _) ?_ (fun m _ hm => (hland m hm).1)]
    · show upd (S1024.rowMajor.symm (S1024.rowMajor (ix1 n))) = upd (ix1 n)
      rw [Equiv.symm_apply_apply]
    · show scatter_S1024x100000_S1024x2_S1024_n_01_01_1.resultIdx? (S1024.rowMajor.symm (S1024.rowMajor (ix1 n))) idx = some (ix2 n c)
      rw [Equiv.symm_apply_apply, resultIdx_eq idx col hr hc n, hcn]
  · rw [if_neg hcn]
    exact Cert.LibFold.foldl_step_miss _ _ _ _ x (ix2 n c) (fun m _ hm => hcn (hland m hm).2)

end Cert.Margin.RefIdx

end
-- ==== Proof.RefValue.lean ====
/-
  The reference's result, index by index: its last stage read back through the division, the sum, the scatter of the
  margins into the logits, the gather of the label logits and the matrix product, is the specification's G.
-/
import proofs.«417018_j8349416424231_3_alg».proof.Proof.Gen.ReferenceIdeal.Read
import proofs.«417018_j8349416424231_3_alg».proof.Proof.Spec
import proofs.«417018_j8349416424231_3_alg».proof.Proof.SpecLaws
import proofs.«417018_j8349416424231_3_alg».proof.Proof.RefIndex
import Idealize.ShloMosaic.Lib.StableHlo.Predicate

noncomputable section

open Idealize.ShloMosaic Idealize.ShloMosaic.ValueIdx Cert.LibReal
open scoped BigOperators

namespace Cert.Margin.Ref

open Cert.ReferenceIdeal Cert.ReferenceIdeal.Gen Cert.ReferenceIdeal.Read

/-! ### The logits and the sample norms -/

/-- Every entry of row c of the broadcast norm array is the square root of the row's sum of squares. -/
private theorem v1_apply (x2 : (⟨S100000x512, .f32⟩ : BufTy).Contents (Elt Ideal)) (c : Fin 100000) (k : Fin 512) :
    val_main_v1 (F := Ideal) x2 (ix2 c k) = Ideal.sqrt (rowSq x2 c) := by
  rw [val_main_v1_apply, val_main_v0_apply, val_main_call0_v2_apply, val_main_call0_v1_apply, val_main_call0_cst_apply]
  simp only [val_main_call0_v0_apply, Ideal.hostUnary_sqrt_def, Ideal.ofBits_def, Ideal.mulf_def, Ideal.ofBits_zero_f32, zero_add]
  unfold rowSq
  refine congrArg Ideal.sqrt (Finset.sum_congr rfl fun k' _ => ?_)
  have e : idx_main_call0_v1 (idx_main_call0_v2 (idx_main_v1 (ix2 c k))) k' = ix2 c k' :=
    funext fun a => Fin.ext (by match a with | ⟨0, _⟩ => rfl | ⟨1, _⟩ => rfl)
  rw [e]

/-- The matrix product at (n, c) is the logit of sample n against class c. -/
theorem v4_apply (x0 : (⟨S1024x512, .f32⟩ : BufTy).Contents (Elt Ideal)) (x2 : (⟨S100000x512, .f32⟩ : BufTy).Contents (Elt Ideal))
    (n : Fin 1024) (c : Fin 100000) :
    val_main_v4 (F := Ideal) x0 x2 (ix2 n c) = logit x0 x2 n c := by
  rw [val_main_v4_apply]
  unfold logit wdiv
  refine Finset.sum_congr rfl fun k _ => ?_
  have el : lidx_main_v4 (ix2 n c) k = ix2 n k :=
    funext fun a => Fin.ext (by match a with | ⟨0, _⟩ => rfl | ⟨1, _⟩ => rfl)
  have er : idx_main_v3 (ridx_main_v4 (ix2 n c) k) = ix2 c k :=
    funext fun a => Fin.ext (by match a with | ⟨0, _⟩ => rfl | ⟨1, _⟩ => rfl)
  rw [val_main_v3_apply, val_main_v2_apply, el, er, v1_apply, Ideal.hostDivf_def]

/-- The norm stage at sample n is the Euclidean norm of x's row n. -/
theorem v5_apply (x0 : (⟨S1024x512, .f32⟩ : BufTy).Contents (Elt Ideal)) (n : Fin 1024) :
    val_main_v5 (F := Ideal) x0 (ix1 n) = xnorm x0 n := by
  rw [val_main_v5_apply, val_main_call1_v1_apply, val_main_call1_cst_apply]
  simp only [val_main_call1_v0_apply, Ideal.hostUnary_sqrt_def, Ideal.ofBits_def, Ideal.mulf_def, Ideal.ofBits_zero_f32, zero_add]
  unfold xnorm
  refine congrArg Ideal.sqrt (Finset.sum_congr rfl fun k' _ => ?_)
  have e : idx_main_call1_v1 (ix1 n) k' = ix2 n k' :=
    funext fun a => Fin.ext (by match a with | ⟨0, _⟩ => rfl | ⟨1, _⟩ => rfl)
  rw [e]

/-! ### The index pairs: column 0 is the sample's number, column 1 its label -/

/-- A word whose signed value is not negative is not below zero, so the wrap-around select keeps the word. -/
private theorem select_slt_zero (x y : BitVec 32) (h : 0 ≤ x.toInt) :
    Scalar.select (IntOp.cmpi .slt x 0#32) y x = x := by
  have hb : x.slt 0#32 = false := by
    unfold BitVec.slt
    simp only [BitVec.toInt_zero]
    exact decide_eq_false (not_lt.mpr h)
  show Scalar.select (BitVec.ofBool (x.slt 0#32)) y x = x
  rw [hb]
  exact select_zero _ _

/-- A concatenation of two one-column arrays, read in column 0, is the first array. -/
private theorem concat_col0 {α : Type} (a b : S1024x1.Idx → α) (n : Fin 1024) :
    concatenate S1024x2 1 [⟨S1024x1, a⟩, ⟨S1024x1, b⟩] concatenates_S1024x1_S1024x1_S1024x2_d1 (ix2 n (0 : Fin 2))
      = a (ix2 n (0 : Fin 1)) :=
  concatenate_pair_apply_left (1 : Fin S1024x2.rank) a b concatenates_S1024x1_S1024x1_S1024x2_d1 (ix2 n (0 : Fin 2)) rfl
    (ix2 n (0 : Fin 1)) (fun c => by match c with | ⟨0, _⟩ => rfl | ⟨1, _⟩ => rfl)

/-- Read in column 1, it is the second array. -/
private theorem concat_col1 {α : Type} (a b : S1024x1.Idx → α) (n : Fin 1024) :
    concatenate S1024x2 1 [⟨S1024x1, a⟩, ⟨S1024x1, b⟩] concatenates_S1024x1_S1024x1_S1024x2_d1 (ix2 n (1 : Fin 2))
      = b (ix2 n (0 : Fin 1)) :=
  concatenate_pair_apply_right (1 : Fin S1024x2.rank) a b concatenates_S1024x1_S1024x1_S1024x2_d1 (ix2 n (1 : Fin 2)) rfl rfl
    (ix2 n (0 : Fin 1)) (fun c hc => by
      match c, hc with
      | ⟨0, _⟩, _ => rfl
      | ⟨1, _⟩, hc => exact absurd rfl hc) rfl

/-- The word of a sample's number reads, signed, as that number. -/
private theorem toInt_sample (n : Fin 1024) : (BitVec.ofNat 32 n.val).toInt = (n.val : ℤ) :=
  StableHlo.Predicate.toInt_ofNat_small n.val (by have := n.isLt; omega)

/-- Entry n of the (gather's) sample-number vector is the word of n: the number is not negative, so it is not wrapped. -/
private theorem v11_apply (n : Fin 1024) : val_main_v11 (F := Ideal) (ix1 n) = BitVec.ofNat 32 n.val := by
  rw [val_main_v11_apply, val_main_v8_apply, val_main_v7_apply, val_main_c_apply, val_main_v6_apply]
  exact select_slt_zero _ _ (by rw [show ((ix1 n : S1024.Idx) 0) = n from rfl, toInt_sample]; omega)

/-- Entry n of the (scatter's) sample-number vector is the word of n. -/
private theorem v50_apply (n : Fin 1024) : val_main_v50 (F := Ideal) (ix1 n) = BitVec.ofNat 32 n.val := by
  rw [val_main_v50_apply, val_main_v47_apply, val_main_v46_apply, val_main_c_9_apply, val_main_v6_apply]
  exact select_slt_zero _ _ (by rw [show ((ix1 n : S1024.Idx) 0) = n from rfl, toInt_sample]; omega)

/-- Entry n of the (gather's) label vector is the label: it is not negative, so it is not wrapped. -/
private theorem v16_apply (x1 : (⟨S1024, .i32⟩ : BufTy).Contents (Elt Ideal)) (n : Fin 1024) (h : 0 ≤ (x1 (ix1 n)).toInt) :
    val_main_v16 (F := Ideal) x1 (ix1 n) = x1 (ix1 n) := by
  rw [val_main_v16_apply, val_main_v13_apply, val_main_v12_apply, val_main_c_1_apply]
  exact select_slt_zero _ _ h

/-- Entry n of the (scatter's) label vector is the label. -/
private theorem v55_apply (x1 : (⟨S1024, .i32⟩ : BufTy).Contents (Elt Ideal)) (n : Fin 1024) (h : 0 ≤ (x1 (ix1 n)).toInt) :
    val_main_v55 (F := Ideal) x1 (ix1 n) = x1 (ix1 n) := by
  rw [val_main_v55_apply, val_main_v52_apply, val_main_v51_apply, val_main_c_11_apply]
  exact select_slt_zero _ _ h

/-- The one-column index of row n is the rank-1 index n. -/
private theorem idx_col (n : Fin 1024) : (fun a => match a with | ⟨0, _⟩ => ⟨((ix2 n (0 : Fin 1) : S1024x1.Idx) 0).val, ((ix2 n (0 : Fin 1) : S1024x1.Idx) 0).isLt⟩ : S1024.Idx) = ix1 n :=
  funext fun a => Fin.ext (by match a with | ⟨0, _⟩ => rfl)

/-- The gather's index pair of sample n is (n, label n). -/
private theorem v19_col0 (x1 : (⟨S1024, .i32⟩ : BufTy).Contents (Elt Ideal)) (n : Fin 1024) :
    val_main_v19 (F := Ideal) x1 (ix2 n (0 : Fin 2)) = BitVec.ofNat 32 n.val := by
  unfold val_main_v19
  rw [concat_col0, val_main_v17_apply]
  exact (congrArg _ (idx_col n)).trans (v11_apply n)
private theorem v19_col1 (x1 : (⟨S1024, .i32⟩ : BufTy).Contents (Elt Ideal)) (n : Fin 1024) (h : 0 ≤ (x1 (ix1 n)).toInt) :
    val_main_v19 (F := Ideal) x1 (ix2 n (1 : Fin 2)) = x1 (ix1 n) := by
  unfold val_main_v19
  rw [concat_col1, val_main_v18_apply]
  exact (congrArg _ (idx_col n)).trans (v16_apply x1 n h)

/-- The scatter's index pair of sample n is (n, label n). -/
private theorem v58_col0 (x1 : (⟨S1024, .i32⟩ : BufTy).Contents (Elt Ideal)) (n : Fin 1024) :
    val_main_v58 (F := Ideal) x1 (ix2 n (0 : Fin 2)) = BitVec.ofNat 32 n.val := by
  unfold val_main_v58
  rw [concat_col0, val_main_v56_apply]
  exact (congrArg _ (idx_col n)).trans (v50_apply n)
private theorem v58_col1 (x1 : (⟨S1024, .i32⟩ : BufTy).Contents (Elt Ideal)) (n : Fin 1024) (h : 0 ≤ (x1 (ix1 n)).toInt) :
    val_main_v58 (F := Ideal) x1 (ix2 n (1 : Fin 2)) = x1 (ix1 n) := by
  unfold val_main_v58
  rw [concat_col1, val_main_v57_apply]
  exact (congrArg _ (idx_col n)).trans (v55_apply x1 n h)

/-! ### The label as a class index, and the two data-dependent stages -/

/-- The label of sample n as a class index (it lies below 100000). -/
private def col (x1 : (⟨S1024, .i32⟩ : BufTy).Contents (Elt Ideal)) (hhi : ∀ n : Fin 1024, (x1 (ix1 n)).toInt < 100000)
    (n : Fin 1024) : Fin 100000 :=
  ⟨(x1 (ix1 n)).toInt.toNat, by have := hhi n; omega⟩

/-- A label that is not negative reads, signed, as its class index. -/
private theorem toInt_label (x1 : (⟨S1024, .i32⟩ : BufTy).Contents (Elt Ideal)) (hlo : ∀ n : Fin 1024, 0 ≤ (x1 (ix1 n)).toInt)
    (hhi : ∀ n : Fin 1024, (x1 (ix1 n)).toInt < 100000) (n : Fin 1024) :
    (x1 (ix1 n)).toInt = ((col x1 hhi n).val : ℤ) :=
  (Int.toNat_of_nonneg (hlo n)).symm

/-- The class index of the label is c exactly when the label is the word of c: both words read, signed, in [0, 2³¹). -/
private theorem col_eq_iff (x1 : (⟨S1024, .i32⟩ : BufTy).Contents (Elt Ideal)) (hlo : ∀ n : Fin 1024, 0 ≤ (x1 (ix1 n)).toInt)
    (hhi : ∀ n : Fin 1024, (x1 (ix1 n)).toInt < 100000) (n : Fin 1024) (c : Fin 100000) :
    col x1 hhi n = c ↔ x1 (ix1 n) = BitVec.ofNat 32 c.val := by
  have hc : (BitVec.ofNat 32 c.val).toInt = (c.val : ℤ) :=
    StableHlo.Predicate.toInt_ofNat_small c.val (by have := c.isLt; omega)
  constructor
  · intro h
    apply BitVec.eq_of_toInt_eq
    rw [hc, ← h]
    exact toInt_label x1 hlo hhi n
  · intro h
    apply Fin.ext
    show (x1 (ix1 n)).toInt.toNat = c.val
    rw [h, hc]
    exact Int.toNat_natCast _

/-- The margin stage at a sample is the quadruple-angle margin of the gathered logit against the sample's norm: the
    printed operations are the margin's own, one for one. -/
private theorem v45_apply (x0 : (⟨S1024x512, .f32⟩ : BufTy).Contents (Elt Ideal)) (x1 : (⟨S1024, .i32⟩ : BufTy).Contents (Elt Ideal))
    (x2 : (⟨S100000x512, .f32⟩ : BufTy).Contents (Elt Ideal)) (i : S1024.Idx) :
    val_main_v45 (F := Ideal) x0 x1 x2 i
      = margin (val_main_v20 (F := Ideal) x0 x1 x2 i) (val_main_v5 (F := Ideal) x0 i) := by
  rw [val_main_v45_apply, val_main_v44_apply, val_main_v43_apply, val_main_v42_apply, val_main_v41_apply, val_main_cst_8_apply,
    val_main_v40_apply, val_main_v39_apply, val_main_v38_apply, val_main_cst_7_apply, val_main_v37_apply, val_main_v36_apply,
    val_main_cst_6_apply, val_main_v35_apply, val_main_v34_apply, val_main_cst_5_apply, val_main_v33_apply, val_main_v32_apply,
    val_main_v31_apply, val_main_cst_4_apply, val_main_v30_apply, val_main_v29_apply, val_main_v28_apply, val_main_v27_apply,
    val_main_cst_3_apply, val_main_v26_apply, val_main_v25_apply, val_main_cst_apply, val_main_v24_apply, val_main_v23_apply,
    val_main_v22_apply, val_main_v21_apply]
  generalize val_main_v20 (F := Ideal) x0 x1 x2 i = lg
  generalize val_main_v5 (F := Ideal) x0 i = xn
  rfl

/-- The gather at sample n reads the logit of n against its label. -/
private theorem v20_apply (x0 : (⟨S1024x512, .f32⟩ : BufTy).Contents (Elt Ideal)) (x1 : (⟨S1024, .i32⟩ : BufTy).Contents (Elt Ideal))
    (x2 : (⟨S100000x512, .f32⟩ : BufTy).Contents (Elt Ideal)) (hlo : ∀ n : Fin 1024, 0 ≤ (x1 (ix1 n)).toInt)
    (hhi : ∀ n : Fin 1024, (x1 (ix1 n)).toInt < 100000) (n : Fin 1024) :
    val_main_v20 (F := Ideal) x0 x1 x2 (ix1 n) = logit x0 x2 n (col x1 hhi n) := by
  unfold val_main_v20
  refine (RefIdx.gather_apply (val_main_v4 (F := Ideal) x0 x2) (val_main_v19 (F := Ideal) x1) n n (col x1 hhi n)
    ((congrArg BitVec.toInt (v19_col0 x1 n)).trans (toInt_sample n))
    ((congrArg BitVec.toInt (v19_col1 x1 n (hlo n))).trans (toInt_label x1 hlo hhi n))).trans ?_
  exact v4_apply x0 x2 n (col x1 hhi n)

/-- The scatter at (n, c) holds sample n's margin where c is its label, and the logit elsewhere. -/
private theorem v59_apply (x0 : (⟨S1024x512, .f32⟩ : BufTy).Contents (Elt Ideal)) (x1 : (⟨S1024, .i32⟩ : BufTy).Contents (Elt Ideal))
    (x2 : (⟨S100000x512, .f32⟩ : BufTy).Contents (Elt Ideal)) (hlo : ∀ n : Fin 1024, 0 ≤ (x1 (ix1 n)).toInt)
    (hhi : ∀ n : Fin 1024, (x1 (ix1 n)).toInt < 100000) (n : Fin 1024) (c : Fin 100000) :
    val_main_v59 (F := Ideal) x0 x1 x2 (ix2 n c)
      = if col x1 hhi n = c then val_main_v45 (F := Ideal) x0 x1 x2 (ix1 n) else val_main_v4 (F := Ideal) x0 x2 (ix2 n c) := by
  unfold val_main_v59
  exact RefIdx.scatter_apply (val_main_v4 (F := Ideal) x0 x2) (val_main_v58 (F := Ideal) x1) (val_main_v45 (F := Ideal) x0 x1 x2)
    (col x1 hhi)
    (fun m => (congrArg BitVec.toInt (v58_col0 x1 m)).trans (toInt_sample m))
    (fun m => (congrArg BitVec.toInt (v58_col1 x1 m (hlo m))).trans (toInt_label x1 hlo hhi m)) n c

/-- The reference's result array is G of the arguments. -/
theorem ref_value (x0 : (⟨S1024x512, .f32⟩ : BufTy).Contents (Elt Ideal)) (x1 : (⟨S1024, .i32⟩ : BufTy).Contents (Elt Ideal))
    (x2 : (⟨S100000x512, .f32⟩ : BufTy).Contents (Elt Ideal)) (hH : Hyp x0 x1 x2) :
    val_main_v64 (F := Ideal) x0 x1 x2 = G x0 x1 x2 := by
  funext i
  obtain ⟨n, c, rfl⟩ : ∃ (n : Fin 1024) (c : Fin 100000), i = ix2 n c := ⟨_, _, eq_ix2 i⟩
  rw [G_ix2]
  unfold Gat
  -- The last stage at (n, c): (scatter + λ · logit) / (1 + λ), the two literals being the words λ and 1 + λ.
  rw [val_main_v64_apply, val_main_v63_apply, val_main_cst_14_apply, val_main_v62_apply, val_main_v61_apply, val_main_v60_apply,
    val_main_cst_13_apply, v59_apply x0 x1 x2 hH.tg_lo hH.tg_hi n c, v4_apply]
  simp only [Ideal.hostDivf_def, Ideal.addf_def, Ideal.mulf_def, Ideal.ofBits_def]
  by_cases h : col x1 hH.tg_hi n = c
  · -- The label's cell: the margin of the gathered logit, blended with the logit.
    rw [if_pos h, if_pos ((col_eq_iff x1 hH.tg_lo hH.tg_hi n c).mp h), v45_apply, v20_apply x0 x1 x2 hH.tg_lo hH.tg_hi, v5_apply, h]
    rfl
  · -- Any other cell: the blend of the logit with itself, a real number.
    rw [if_neg h, if_neg (fun e => h ((col_eq_iff x1 hH.tg_lo hH.tg_hi n c).mpr e))]
    exact blend_self (logit_real hH n c)

end Cert.Margin.Ref

end
-- ==== Proof.PreFacts.lean ====
/-
  What the printed precondition says of the arguments, read at the extended reals: every entry of x and of w
  is finite (its absolute value is below +∞), every label is at least 0 and below 100000 as a signed word, and
  every row of w has a positive sum of squares.
-/
import proofs.«417018_j8349416424231_3_alg».proof.Pre_finite_inputs
import proofs.«417018_j8349416424231_3_alg».proof.Proof.Gen.Pre_finite_inputs
import proofs.«417018_j8349416424231_3_alg».proof.Proof.Spec
import Idealize.ShloMosaic.Lib.ReduceAll
import Idealize.ShloMosaic.Lib.StableHlo.Predicate
import Idealize.ShloMosaic.PureOps.Ideal.Laws

noncomputable section

open Idealize.ShloMosaic Idealize.ShloMosaic.ValueIdx
open scoped BigOperators

namespace Cert.Margin

/-- The scalar shape has exactly one index, so a conjunction over all axes lands on it. -/
private instance subsingleton_scalar_idx : Subsingleton Cert.Pre_finite_inputs.S_.Idx :=
  ⟨fun a b => funext fun d => d.elim0⟩

/-- The binary32 word of +∞ denotes the top of the extended reals. -/
private theorem ofBits_inf : Ideal.ofBits .f32 0x7F800000#32 = ⊤ := by simp [Ideal.ofBits, Ideal.ieee]

/-- An extended real whose absolute value max a (−a) lies strictly below +∞ is neither infinity: it is a real. -/
private theorem real_of_abs_lt (a : EReal)
    (h : Ideal.cmp .olt (max a (-a)) (Ideal.ofBits .f32 0x7F800000#32) = 1#1) : ∃ r : ℝ, a = (r : EReal) := by
  rw [ofBits_inf] at h
  unfold Ideal.cmp at h
  rw [StableHlo.Predicate.ofBool_eq_one_iff, decide_eq_true_eq] at h
  induction a using EReal.rec with
  | bot => simp at h
  | top => simp at h
  | coe r => exact ⟨r, rfl⟩

/-- The precondition, all ones, gives the hypotheses. -/
theorem hyp_of_pre [Cert.Pre_finite_inputs.Facts]
    (x : Cert.Pre_finite_inputs.S1024x512.Idx → EReal) (tg : Cert.Pre_finite_inputs.S1024.Idx → BitVec 32)
    (w : Cert.Pre_finite_inputs.S100000x512.Idx → EReal)
    (h : Cert.Pre_finite_inputs.fn (F := Ideal) x tg w = fun _ => 1#1) : Hyp x tg w := by
  -- the predicate at its one index is a conjunction of five "for all" bits, each of which is 1
  have h0 := congrFun h ValueIdx.ix0
  dsimp only [Cert.Pre_finite_inputs.fn, Cert.Pre_finite_inputs.fn_part1] at h0
  simp only [andi, IntOp.andi_eq_one] at h0
  obtain ⟨⟨⟨⟨hx, hw⟩, hlo⟩, hhi⟩, hrow⟩ := h0
  -- a conjunction over every axis that is 1 had a 1 at every index
  have hx' := Host.reduce_andi_all _ _ _ _ _ hx
  have hw' := Host.reduce_andi_all _ _ _ _ _ hw
  have hlo' := Host.reduce_andi_all _ _ _ _ _ hlo
  have hhi' := Host.reduce_andi_all _ _ _ _ _ hhi
  have hrow' := Host.reduce_andi_all _ _ _ _ _ hrow
  refine ⟨fun i => real_of_abs_lt (x i) (hx' i), fun i => real_of_abs_lt (w i) (hw' i), fun n => ?_, fun n => ?_, fun c => ?_⟩
  · -- the signed comparison  tg n ≥ 0
    have e : IntOp.cmpi .sge (tg (ix1 n)) 0#32 = 1#1 := hlo' (ix1 n)
    rw [IntOp.cmpi_sge] at e
    exact e
  · -- the signed comparison  tg n < 100000
    have e : IntOp.cmpi .slt (tg (ix1 n)) 100000#32 = 1#1 := hhi' (ix1 n)
    rw [IntOp.cmpi_slt] at e
    exact e
  · -- row c: the sum over the second axis from the initial value 0 is ∑ k, w (c, k) · w (c, k), and it exceeds 0
    have hR : Cert.Pre_finite_inputs.S100000x512.Reduces [1] Cert.Pre_finite_inputs.S100000 := by decide
    have e := hrow' (ix1 c)
    rw [cmpf_apply] at e
    simp only [Host.reduceAdd, Ideal.hostReduceAdd_def, broadcastInDim, constant_apply, Ideal.ofBits_zero_f32] at e
    rw [Ideal.hostReduceAdd_single _ hR, zero_add] at e
    change Ideal.cmp .ogt _ _ = 1#1 at e
    unfold Ideal.cmp at e
    rw [StableHlo.Predicate.ofBool_eq_one_iff, decide_eq_true_eq] at e
    -- the index over row c with k inserted on the summed axis is (c, k)
    have hl : ∀ k : Fin 512, hR.lift (ix1 c) k = ix2 c k := fun k => by
      funext d
      match d with
      | ⟨0, _⟩ => exact Fin.ext rfl
      | ⟨1, _⟩ => exact Fin.ext rfl
    refine lt_of_lt_of_eq e ?_
    unfold rowSq
    refine Finset.sum_congr rfl fun k _ => ?_
    rw [hl k, mulf_apply]

end Cert.Margin

end
-- ==== Proof.lean ====
/-
  The certificate's five claims.

  Both programs compute, for samples x : [1024, 512], labels tg : [1024] and class weights w : [100000, 512], the
  logits of every sample against every row-normalised class weight, with the label's cell of each sample replaced by
  the blend (margin + λ · logit) / (1 + λ) of its quadruple-angle margin. The kernel normalises a row by multiplying
  with the reciprocal square root of its sum of squares, and writes the plain logit off the label's cell; the
  reference divides by the norm and blends every cell, (logit + λ · logit) / (1 + λ) off the label's cell. On real
  entries, off the zero row, and with the two literals' words differing by exactly one, these are the same numbers.
  The precondition says exactly that: finite entries, labels in [0, 100000), no zero row of w.

  The three frames: the reference's is its run read back; the idealized kernel's and the word-level kernel's are runs
  of the pipeline whose body loads and stores whole blocks. preserves is trivial (the idealization rewrote nothing).
-/
import proofs.«417018_j8349416424231_3_alg».proof.Defs
import proofs.«417018_j8349416424231_3_alg».proof.Proof.Gen.Kernel
import proofs.«417018_j8349416424231_3_alg».proof.Proof.Gen.KernelIdeal
import proofs.«417018_j8349416424231_3_alg».proof.Proof.Gen.KernelIdeal.Frame
import proofs.«417018_j8349416424231_3_alg».proof.Proof.Gen.ReferenceIdeal
import proofs.«417018_j8349416424231_3_alg».proof.Proof.Gen.ReferenceIdeal.Run
import proofs.«417018_j8349416424231_3_alg».proof.Proof.Gen.ReferenceIdeal.Read
import proofs.«417018_j8349416424231_3_alg».proof.Proof.Gen.Pre_finite_inputs
import proofs.«417018_j8349416424231_3_alg».proof.Proof.RefFrame
import proofs.«417018_j8349416424231_3_alg».proof.Proof.FrameBits
import proofs.«417018_j8349416424231_3_alg».proof.Proof.KernelRun
import proofs.«417018_j8349416424231_3_alg».proof.Proof.RefValue
import proofs.«417018_j8349416424231_3_alg».proof.Proof.PreFacts
import Idealize.ShloMosaic.Adequacy
import Idealize.ShloMosaic.Init

noncomputable section

namespace Cert.Proof

open Idealize.ShloMosaic Idealize.ShloMosaic.TcCoe Idealize.SL.Sem

/-- The idealized kernel's frame: its run, read at the three arguments. -/
theorem frame_pi : Cert.frame_KernelIdeal := fun m ρ _ =>
  Cert.KernelIdeal.Gen.frame_of m ρ (Cert.Margin.KRun.dats m) (Cert.Margin.KRun.A_eq m) (Cert.Margin.KRun.run_main m ρ)

/-- From memories agreeing on the arguments both programs end with the result array at G of the arguments. -/
theorem algebraic : Cert.algebraic_KernelIdeal_ReferenceIdeal := by
  intro m ρ m' ρ' hpre hagree
  have hH : ∀ c : Dev Cert.KernelIdeal.nD,
      Cert.Margin.Hyp (Cert.Margin.KHost.xA m c) (Cert.Margin.KHost.tA m c) (Cert.Margin.KHost.wA m c) :=
    fun c => Cert.Margin.hyp_of_pre _ _ _ (hpre c)
  refine ⟨fun c => Cert.Margin.G (Cert.Margin.KHost.xA m c) (Cert.Margin.KHost.tA m c) (Cert.Margin.KHost.wA m c), ?_, ?_⟩
  · refine (θ_run Cert.KernelIdeal.defs _ _).mono (fun r h c => ⟨?_, ?_, ?_, ?_⟩) (Cert.Margin.KRun.run_main m ρ)
    · exact ((h c).1 4).trans (Cert.Margin.KRun.final m c (hH c))
    · exact ((h c).2 Cert.KernelIdeal.main_arg0 (Pipeline.mem_restRefs_of Cert.KernelIdeal.main_arg0 (by decide) (by decide))).trans
        (Cert.KernelIdeal.Gen.V_main_arg0 m c)
    · exact ((h c).2 Cert.KernelIdeal.main_arg1 (Pipeline.mem_restRefs_of Cert.KernelIdeal.main_arg1 (by decide) (by decide))).trans
        (Cert.KernelIdeal.Gen.V_main_arg1 m c)
    · exact ((h c).1 1).trans (((Cert.Margin.KRun.dats m 0 c).arrAt_in 1 rfl _).trans
        ((Cert.Margin.KRun.A_eq m c 1).trans (Cert.KernelIdeal.Gen.V_main_arg2 m c)))
  · refine (θ_run Cert.ReferenceIdeal.defs _ _).mono (fun r h c => ⟨?_, (h c).2⟩)
      (Cert.ReferenceIdeal.Value.run (F := Ideal) m' ρ')
    rw [(h c).1, Cert.ReferenceIdeal.Read.val_main_v64_eq, (hagree c).1, (hagree c).2.1, (hagree c).2.2]
    exact Cert.Margin.Ref.ref_value _ _ _ (hH c)

theorem claim : Cert.Claim :=
  ⟨Cert.Kernel.Gen.facts, Cert.KernelIdeal.Gen.facts, Cert.ReferenceIdeal.Gen.facts, Cert.Pre_finite_inputs.Gen.facts,
    Cert.Proof.KernelSide.frame_p, frame_pi, Cert.Proof.RefSide.frame_ri, trivial, algebraic⟩

end Cert.Proof

end
